-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S192x64 : Shape := ⟨2, ![192, 64]⟩
abbrev S64 : Shape := ⟨1, ![64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg3 : IVec S800000 32) (main_arg4 : IVec S800000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S800000 32 := broadcastInDim S800000 ![] bcast_S_S800000 main_c_20
  let main_v55 : IVec S800000 1 := cmpi .sge main_arg3 main_v54
  let main_c_21 : IVec S_ 32 := constantI S_ 32 50000#32
  let main_v56 : IVec S800000 32 := broadcastInDim S800000 ![] bcast_S_S800000 main_c_21
  let main_v57 : IVec S800000 1 := cmpi .slt main_arg3 main_v56
  let main_v58 : IVec S800000 1 := andi main_v55 main_v57
  let main_c_22 : IVec S_ 1 := constantI S_ 1 1#1
  let main_v59 : IVec S_ 1 := (fun x v => Host.reduce IntOp.andi x v reducesTo_S800000_S_d0 h_S_) main_v58 main_c_22
  let main_v60 : IVec S_ 1 := andi main_v53 main_v59
  let main_c_23 : IVec S_ 32 := constantI S_ 32 0#32
  let main_v61 : IVec S800000 32 := broadcastInDim S800000 ![] bcast_S_S800000 main_c_23
  let main_v62 : IVec S800000 1 := cmpi .sge main_arg4 main_v61
  let main_c_24 : IVec S_ 32 := constantI S_ 32 50000#32
  let main_v63 : IVec S800000 32 := broadcastInDim S800000 ![] bcast_S_S800000 main_c_24
  let main_v64 : IVec S800000 1 := cmpi .slt main_arg4 main_v63
  let main_v65 : IVec S800000 1 := andi main_v62 main_v64
  let main_c_25 : IVec S_ 1 := constantI S_ 1 1#1
  let main_v66 : IVec S_ 1 := (fun x v => Host.reduce IntOp.andi x v reducesTo_S800000_S_d0 h_S_) main_v65 main_c_25
  let main_v67 : IVec S_ 1 := andi main_v60 main_v66
  main_v67

def fn_part2 {F : FTy → Type} [FloatOps F] (main_arg3 : IVec S800000 32) (main_arg4 : IVec S800000 32) (main_arg9 : FVec F S64x64 .f32) (main_arg10 : FVec F S128x64 .f32) (main_arg11 : FVec F S128x64 .f32) (main_arg12 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg3 main_arg4 main_v48 main_v49 main_v50

def fn_part1 {F : FTy → Type} [FloatOps F] (main_arg3 : IVec S800000 32) (main_arg4 : IVec S800000 32) (main_arg6 : FVec F S192x64 .f32) (main_arg7 : FVec F S64x64 .f32) (main_arg8 : FVec F S64 .f32) (main_arg9 : FVec F S64x64 .f32) (main_arg10 : FVec F S128x64 .f32) (main_arg11 : FVec F S128x64 .f32) (main_arg12 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S192x64 .f32 := Host.absf main_arg6
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg4 main_arg9 main_arg10 main_arg11 main_arg12 main_v33

def fn {F : FTy → Type} [FloatOps F] (main_arg0 : FVec F S50000x64 .f32) (main_arg1 : FVec F S50000x64 .f32) (main_arg2 : FVec F S800000x64 .f32) (main_arg3 : IVec S800000 32) (main_arg4 : IVec S800000 32) (main_arg5 : FVec F S64x64 .f32) (main_arg6 : FVec F S192x64 .f32) (main_arg7 : FVec F S64x64 .f32) (main_arg8 : FVec F S64 .f32) (main_arg9 : FVec F S64x64 .f32) (main_arg10 : FVec F S128x64 .f32) (main_arg11 : FVec F S128x64 .f32) (main_arg12 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000x64 .f32 := Host.absf main_arg2
  let main_cst_2 : FVec F S_ .f32 := constant S_ .f32 0x7F800000#32
  let main_v10 : FVec F S800000x64 .f32 := broadcastInDim S800000x64 ![] bcast_S_S800000x64 main_cst_2
  let main_v11 : IVec S800000x64 1 := cmpf .olt main_v9 main_v10
  let main_c_3 : IVec S_ 1 := constantI S_ 1 1#1
  let main_v12 : IVec S_ 1 := (fun x v => Host.reduce IntOp.andi x v reducesTo_S800000x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg3 main_arg4 main_arg6 main_arg7 main_arg8 main_arg9 main_arg10 main_arg11 main_arg12 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S192x64 : Shape := ⟨2, ![192, 64]⟩
abbrev S64 : Shape := ⟨1, ![64]⟩
abbrev S128x64 : Shape := ⟨2, ![128, 64]⟩
abbrev S5000x64 : Shape := ⟨2, ![5000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S8000x64 : Shape := ⟨2, ![8000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 113
  | .vmem => 44
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S800000x64, .f32⟩
  | .hbm, ⟨3, _⟩ => ⟨S800000, .i32⟩
  | .hbm, ⟨4, _⟩ => ⟨S800000, .i32⟩
  | .hbm, ⟨5, _⟩ => ⟨S64x64, .f32⟩
  | .hbm, ⟨6, _⟩ => ⟨S192x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S128x64, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S50000x64, .f32⟩
  | .hbm, ⟨21, _⟩ => ⟨S50000x64, .f32⟩
  | .hbm, ⟨22, _⟩ => ⟨S50000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S1, .i32⟩
  | .hbm, ⟨32, _⟩ => ⟨S_, .i32⟩
  | .hbm, ⟨33, _⟩ => ⟨S800000x1, .i32⟩
  | .hbm, ⟨34, _⟩ => ⟨S800000x1, .i1⟩
  | .hbm, ⟨35, _⟩ => ⟨S1x1, .i32⟩
  | .hbm, ⟨36, _⟩ => ⟨S800000x1, .i32⟩
  | .hbm, ⟨37, _⟩ => ⟨S800000x1, .i1⟩
  | .hbm, ⟨38, _⟩ => ⟨S800000x1, .i1⟩
  | .hbm, ⟨39, _⟩ => ⟨S_, .i1⟩
  | .hbm, ⟨40, _⟩ => ⟨S800000, .i1⟩
  | .hbm, ⟨41, _⟩ => ⟨S800000x64, .f32⟩
  | .hbm, ⟨42, _⟩ => ⟨S800000x64, .i1⟩
  | .hbm, ⟨43, _⟩ => ⟨S_, .f32⟩
  | .hbm, ⟨44, _⟩ => ⟨S800000x64, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x64, .f32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S1, .i32⟩
  | .hbm, ⟨74, _⟩ => ⟨S_, .i32⟩
  | .hbm, ⟨75, _⟩ => ⟨S800000x1, .i32⟩
  | .hbm, ⟨76, _⟩ => ⟨S800000x1, .i1⟩
  | .hbm, ⟨77, _⟩ => ⟨S1x1, .i32⟩
  | .hbm, ⟨78, _⟩ => ⟨S800000x1, .i32⟩
  | .hbm, ⟨79, _⟩ => ⟨S800000x1, .i1⟩
  | .hbm, ⟨80, _⟩ => ⟨S800000x1, .i1⟩
  | .hbm, ⟨81, _⟩ => ⟨S_, .i1⟩
  | .hbm, ⟨82, _⟩ => ⟨S800000, .i1⟩
  | .hbm, ⟨83, _⟩ => ⟨S800000x64, .f32⟩
  | .hbm, ⟨84, _⟩ => ⟨S800000x64, .i1⟩
  | .hbm, ⟨85, _⟩ => ⟨S_, .f32⟩
  | .hbm, ⟨86, _⟩ => ⟨S800000x64, .f32⟩
  | .hbm, ⟨87, _⟩ => ⟨S800000x64, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S1, .i32⟩
  | .hbm, ⟨97, _⟩ => ⟨S_, .i32⟩
  | .hbm, ⟨98, _⟩ => ⟨S800000x1, .i32⟩
  | .hbm, ⟨99, _⟩ => ⟨S800000x1, .i1⟩
  | .hbm, ⟨100, _⟩ => ⟨S1x1, .i32⟩
  | .hbm, ⟨101, _⟩ => ⟨S800000x1, .i32⟩
  | .hbm, ⟨102, _⟩ => ⟨S800000x1, .i1⟩
  | .hbm, ⟨103, _⟩ => ⟨S800000x1, .i1⟩
  | .hbm, ⟨104, _⟩ => ⟨S_, .i1⟩
  | .hbm, ⟨105, _⟩ => ⟨S800000, .i1⟩
  | .hbm, ⟨106, _⟩ => ⟨S800000x64, .f32⟩
  | .hbm, ⟨107, _⟩ => ⟨S800000x64, .i1⟩
  | .hbm, ⟨108, _⟩ => ⟨S_, .f32⟩
  | .hbm, ⟨109, _⟩ => ⟨S800000x64, .f32⟩
  | .hbm, ⟨110, _⟩ => ⟨S800000x64, .f32⟩
  | .hbm, ⟨111, _⟩ => ⟨S1x64, .f32⟩
  | .hbm, ⟨112, _⟩ => ⟨S800000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S64x64, .f32⟩
  | .local _ .vmem, ⟨19, _⟩ => ⟨S8000x64, .f32⟩
  | .local _ .vmem, ⟨20, _⟩ => ⟨S8000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S64x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S8000x64, .f32⟩
  | .local _ .vmem, ⟨34, _⟩ => ⟨S8000x64, .f32⟩
  | .local _ .vmem, ⟨35, _⟩ => ⟨S8000x64, .f32⟩
  | .local _ .vmem, ⟨36, _⟩ => ⟨S8000x64, .f32⟩
  | .local _ .vmem, ⟨37, _⟩ => ⟨S8000x64, .f32⟩
  | .local _ .vmem, ⟨38, _⟩ => ⟨S8000x64, .f32⟩
  | .local _ .vmem, ⟨39, _⟩ => ⟨S64x64, .f32⟩
  | .local _ .vmem, ⟨40, _⟩ => ⟨S64x64, .f32⟩
  | .local _ .vmem, ⟨41, _⟩ => ⟨S1x64, .f32⟩
  | .local _ .vmem, ⟨42, _⟩ => ⟨S8000x64, .f32⟩
  | .local _ .vmem, ⟨43, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v8 : Ref sig .tc := ⟨.hbm, 45, rfl⟩
abbrev main_v9 : Ref sig .tc := ⟨.hbm, 46, rfl⟩
abbrev main_cst : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst_0 : Ref sig .tc := ⟨.hbm, 51, rfl⟩
abbrev main_v13 : Ref sig .tc := ⟨.hbm, 52, rfl⟩
abbrev main_cst_1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_2 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v24 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S192x64_S64x64_0_0 : S192x64.Slices ![0, 0] S64x64
  slices_S192x64_S64x64_64_0 : S192x64.Slices ![64, 0] S64x64
  slices_S192x64_S64x64_128_0 : S192x64.Slices ![128, 0] S64x64
  slices_S128x64_S64x64_0_0 : S128x64.Slices ![0, 0] S64x64
  slices_S128x64_S64x64_64_0 : S128x64.Slices ![64, 0] S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  broadcasts_S1x64_S8000x64 : S1x64.Broadcasts S8000x64
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .f32 = 32 ∨ (Rect.block (s := S50000x64) S5000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S800000x64.size a
  hwx1_3 : ∀ i : grid1.Coords, EltTy.bits .f32 = 32 ∨ (Rect.block (s := S800000x64) S8000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S800000x64.size a
  hwx3_0 : ∀ i : grid3.Coords, EltTy.bits .f32 = 32 ∨ (Rect.block (s := S800000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S800000x64.size a
  hwx3_1 : ∀ i : grid3.Coords, EltTy.bits .f32 = 32 ∨ (Rect.block (s := S800000x64) S8000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x64.size a ≤ S800000x64.size a
  hwx3_2 : ∀ i : grid3.Coords, EltTy.bits .f32 = 32 ∨ (Rect.block (s := S800000x64) S8000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8000x64.size a ≤ S800000x64.size a
  hwx3_6 : ∀ i : grid3.Coords, EltTy.bits .f32 = 32 ∨ (Rect.block (s := S800000x64) S8000x64.size (cc3_transform_6 i) (hinb3_6 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S5000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_2) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg2) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v23) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg2) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S8000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v5) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v26) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v27) S8000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S192x64 : Shape := ⟨2, ![192, 64]⟩
abbrev S64 : Shape := ⟨1, ![64]⟩
abbrev S128x64 : Shape := ⟨2, ![128, 64]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S50000x192 : Shape := ⟨2, ![50000, 192]⟩
abbrev S1x64 : Shape := ⟨2, ![1, 64]⟩
abbrev S50000x128 : Shape := ⟨2, ![50000, 128]⟩
abbrev S800000x128 : Shape := ⟨2, ![800000, 128]⟩

abbrev nBuf : Space → Nat
  | .hbm => 73
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S800000x64, .f32⟩
  | .hbm, ⟨3, _⟩ => ⟨S800000, .i32⟩
  | .hbm, ⟨4, _⟩ => ⟨S800000, .i32⟩
  | .hbm, ⟨5, _⟩ => ⟨S64x64, .f32⟩
  | .hbm, ⟨6, _⟩ => ⟨S192x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S128x64, .f32⟩
  | .hbm, ⟨11, _⟩ => ⟨S128x64, .f32⟩
  | .hbm, ⟨12, _⟩ => ⟨S64, .f32⟩
  | .hbm, ⟨13, _⟩ => ⟨S50000x64, .f32⟩
  | .hbm, ⟨14, _⟩ => ⟨S800000x64, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S800000x64, .f32⟩
  | .hbm, ⟨25, _⟩ => ⟨S_, .f32⟩
  | .hbm, ⟨26, _⟩ => ⟨S50000x64, .f32⟩
  | .hbm, ⟨27, _⟩ => ⟨S800000x1, .i32⟩
  | .hbm, ⟨28, _⟩ => ⟨S50000x64, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x64, .f32⟩
  | .hbm, ⟨40, _⟩ => ⟨S50000x64, .f32⟩
  | .hbm, ⟨41, _⟩ => ⟨S50000x192, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S50000x128, .f32⟩
  | .hbm, ⟨48, _⟩ => ⟨S50000x64, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x64, .f32⟩
  | .hbm, ⟨67, _⟩ => ⟨S800000x64, .f32⟩
  | .hbm, ⟨68, _⟩ => ⟨S800000x128, .f32⟩
  | .hbm, ⟨69, _⟩ => ⟨S800000x64, .f32⟩
  | .hbm, ⟨70, _⟩ => ⟨S1x64, .f32⟩
  | .hbm, ⟨71, _⟩ => ⟨S800000x64, .f32⟩
  | .hbm, ⟨72, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x128_d1 : Shape.Concatenates [S50000x64, S50000x64] S50000x128 1
  concatenates_S800000x64_S800000x64_S800000x128_d1 : Shape.Concatenates [S800000x64, S800000x64] S800000x128 1
  bcast_S1x64_S800000x64_0_1 : S1x64.BroadcastsInDim S800000x64 (![0, 1] : Fin 2 → Fin S800000x64.rank)
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x192_S192x64_S50000x64_1_0_0_1_n_n_wf : DotDims.WF S50000x192 S192x64 S50000x64 [1] [0] [0] [1] [] []
  dot_S50000x128_S128x64_S50000x64_1_0_0_1_n_n_wf : DotDims.WF S50000x128 S128x64 S50000x64 [1] [0] [0] [1] [] []
  dot_S800000x128_S128x64_S800000x64_1_0_0_1_n_n_wf : DotDims.WF S800000x128 S128x64 S800000x64 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf

class Facts : Prop extends Facts₀ where

variable [Facts]
-- ==== Proof.Spec.lean ====
/-
  The mathematics both programs compute, index by index, over the extended reals.

  A message-passing layer on a graph of 50000 nodes and 800000 edges, every feature width 64.  Every dense
  step is a row-by-matrix product `∑ k, A[p, k] · W[k, q]` over `k < 64`.  A product against a taller weight
  matrix (192 or 128 rows) of a row that is a concatenation of 64-wide pieces is the sum of the pieces' products
  against the matching 64-row bands of the weight: a regrouping of one finite sum, which needs only that
  addition of extended reals is commutative and associative (no finiteness).
-/
import Idealize.ShloMosaic.Lib.ValueIdx
import Idealize.ShloMosaic.PureOps.Ideal.Laws

noncomputable section

open scoped BigOperators

namespace Cert.Gnn

open Idealize.ShloMosaic Idealize.ShloMosaic.ValueIdx

/-- A rank-2 array of extended reals with literal extents. -/
abbrev Arr (r c : Nat) : Type := (⟨2, ![r, c]⟩ : Shape).Idx → EReal

/-- The row coordinate of a rank-2 index, at its literal extent. -/
abbrev row {r c : Nat} (i : (⟨2, ![r, c]⟩ : Shape).Idx) : Fin r := ⟨(i 0).val, idx2_lt0 i⟩
/-- The column coordinate of a rank-2 index, at its literal extent. -/
abbrev col {r c : Nat} (i : (⟨2, ![r, c]⟩ : Shape).Idx) : Fin c := ⟨(i 1).val, idx2_lt1 i⟩

theorem ix2_row_col {r c : Nat} (i : (⟨2, ![r, c]⟩ : Shape).Idx) : ix2 (row i) (col i) = i := by
  funext a; match a with | ⟨0, _⟩ => rfl | ⟨1, _⟩ => rfl

/-- Entry `(p, q)` of the product of the rows of `A` with a 64 × 64 matrix `W`. -/
def mm {r : Nat} (A : Arr r 64) (W : Arr 64 64) (p : Fin r) (q : Fin 64) : EReal :=
  ∑ k : Fin 64, A (ix2 p k) * W (ix2 k q)

/-- Entry `(p, q)` of the product of the rows of `A` with the band of 64 rows of `W` that starts at row `off`. -/
def mmBand {r kw : Nat} (A : Arr r 64) (W : Arr kw 64) (off : Nat) (h : off + 64 ≤ kw) (p : Fin r) (q : Fin 64) : EReal :=
  ∑ k : Fin 64, A (ix2 p k) * W (ix2 (⟨off + k.val, by have := k.isLt; omega⟩ : Fin kw) q)

/-- One projection: `A · W`. -/
def proj {r : Nat} (A : Arr r 64) (W : Arr 64 64) : Arr r 64 := fun i => mm A W (row i) (col i)

/-- Two projections added: `S · W₀ + X · W₁`. -/
def proj2 {r : Nat} (S X : Arr r 64) (W0 W1 : Arr 64 64) : Arr r 64 :=
  fun i => mm S W0 (row i) (col i) + mm X W1 (row i) (col i)

/-- The edge message: `E · W + g`, with `g` the gathered source-node projection. -/
def msg {r : Nat} (E g : Arr r 64) (W : Arr 64 64) : Arr r 64 := fun i => mm E W (row i) (col i) + g i

/-- The node update: `((S · W₀ + X · W₁) + H · W₂) + b`, the bias a single row. -/
def nodeOut {r : Nat} (S X H : Arr r 64) (W0 W1 W2 : Arr 64 64) (b : Arr 1 64) : Arr r 64 :=
  fun i => ((mm S W0 (row i) (col i) + mm X W1 (row i) (col i)) + mm H W2 (row i) (col i)) + b (ix2 (0 : Fin 1) (col i))

/-- The edge update: `(E · W₀ + (u + v) · W₁) + b`, with `u`, `v` the two gathered node projections. -/
def edgeOut {r : Nat} (E u v : Arr r 64) (W0 W1 : Arr 64 64) (b : Arr 1 64) : Arr r 64 :=
  fun i => (mm E W0 (row i) (col i) + mm (fun j => u j + v j) W1 (row i) (col i)) + b (ix2 (0 : Fin 1) (col i))

end Cert.Gnn

end
-- ==== Proof.Nodes.lean ====
/-
  When an edge's endpoint is a node: the index arrays `src` and `dst` name nodes `0 … 49999`.
-/
import Idealize.ShloMosaic.Lib.ValueIdx

noncomputable section

namespace Cert.Gnn

open Idealize.ShloMosaic

/-- Every entry of an array of 800000 node indices (32-bit words) is a node of the graph: its value is below 50000
    (so the word is non-negative read signed, and is its own value). -/
def InRange (idx : (⟨1, ![800000]⟩ : Shape).Idx → BitVec 32) : Prop := ∀ e, (idx e).toNat < 50000

end Cert.Gnn

end
-- ==== Proof.KHost.lean ====
/-
  The host-side steps of the kernel's program between its four dense regions, each as one function of the arrays it
  reads, in the program's own operations:

  * `takeRows x idx` — `jnp.take(x, idx, axis=0)` as the program spells it: a negative index wraps by the extent,
    the rows are gathered, and a row whose (wrapped) index falls outside `0 … 49999` is replaced by the fill constant;
  * `gatherRows x idx` — the same without the fill: what plain indexing `x[idx]` lowers to;
  * `meanAgg m dst` — the mean over incoming edges: the scatter-add of the messages by destination, divided by
    `max(in-degree, 1)`.
-/
import proofs.«431017_j90924457656405_3_alg».proof.Proof.Gen.KernelIdeal
import proofs.«431017_j90924457656405_3_alg».proof.Proof.Nodes

noncomputable section

namespace Cert.Gnn

open Cert.KernelIdeal Cert.KernelIdeal.Gen
open Idealize.ShloMosaic

variable {F : FTy → Type} [FloatOps F]

/-- The start indices of the row gather: `idx` with a negative entry wrapped by the extent 50000, as a column. -/
def startIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Plain row indexing `x[idx]`. -/
def gatherRows (x : FVec F S50000x64 .f32) (idx : IVec S800000 32) : FVec F S800000x64 .f32 :=
  Host.gather gather_S50000x64_S800000x1_S800000x64_1_0_n_n_0_1_164 x (startIdx idx)

/-- Which rows' (wrapped) indices lie in `0 … 49999`. -/
def validRows (idx : IVec S800000 32) : IVec S800000 1 :=
  Host.reduce IntOp.andi
    (andi (cmpi .sge (startIdx idx) (broadcastInDim S800000x1 ![] bcast_S_S800000x1 (constantI S_ 32 0#32)))
      (cmpi .sle (startIdx idx) (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- `jnp.take(x, idx, axis=0)`: the gathered rows, a row with an out-of-range index replaced by the fill. -/
def takeRows (x : FVec F S50000x64 .f32) (idx : IVec S800000 32) : FVec F S800000x64 .f32 :=
  select (broadcastInDim S800000x64 ![0] bcast_S800000_S800000x64_0 (validRows idx)) (gatherRows x idx)
    (broadcastInDim S800000x64 ![] bcast_S_S800000x64 (constant (F := F) S_ .f32 0x7FC00000#32))

/-- The mean of the messages over each node's incoming edges (zero for a node with none). -/
def meanAgg (m : FVec F S800000x64 .f32) (dst : IVec S800000 32) : FVec F S50000x64 .f32 :=
  Host.divf
    (Host.scatterAdd scatter_S50000x64_S800000x1_S800000x64_1_0_0_1
      (broadcastInDim S50000x64 ![] bcast_S_S50000x64 (constant (F := F) S_ .f32 0x00000000#32))
      (broadcastInDim S800000x1 ![0] bcast_S800000_S800000x1_0 dst) m)
    (broadcastInDim S50000x64 ![0, 1] bcast_S50000x1_S50000x64_0_1
      (broadcastInDim S50000x1 ![0] bcast_S50000_S50000x1_0
        (maximumf
          (Host.scatterAdd scatter_S50000_S800000x1_S800000_n_0_0_1
            (broadcastInDim S50000 ![] bcast_S_S50000 (constant (F := F) S_ .f32 0x00000000#32))
            (broadcastInDim S800000x1 ![0] bcast_S800000_S800000x1_0 dst)
            (broadcastInDim S800000 ![] bcast_S_S800000 (constant (F := F) S_ .f32 0x3F800000#32)))
          (broadcastInDim S50000 ![] bcast_S_S50000 (constant (F := F) S_ .f32 0x3F800000#32)))))

end Cert.Gnn

end
-- ==== Proof.KVals.lean ====
/-
  Names for the arrays the kernel program computes on the way from its thirteen arguments to its two results.
-/
import proofs.«431017_j90924457656405_3_alg».proof.Proof.Gen.KernelIdeal.Frame
import proofs.«431017_j90924457656405_3_alg».proof.Proof.Spec
import proofs.«431017_j90924457656405_3_alg».proof.Proof.KHost

import Idealize.ShloMosaic.Lib.StableHlo.Run
import Idealize.ShloMosaic.Lib.Pipeline.Value

set_option maxRecDepth 16384

noncomputable section

namespace Cert.Gnn.Thread

open Cert.KernelIdeal Cert.KernelIdeal.Gen Cert.Gnn
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- An argument array as launched. -/
abbrev A (b : Ref sig .tc) : Buf (Elt Ideal) ((c : Thread nD τ).loc b) := m ((c : Thread nD τ).loc b)

/-- The three 64-row bands of the 192-row node-update weight. -/
abbrev wn0 : FVec Ideal S64x64 .f32 := extractStridedSlice S64x64 ![0, 0] (A m c main_arg6) slices_S192x64_S64x64_0_0
abbrev wn1 : FVec Ideal S64x64 .f32 := extractStridedSlice S64x64 ![64, 0] (A m c main_arg6) slices_S192x64_S64x64_64_0
abbrev wn2 : FVec Ideal S64x64 .f32 := extractStridedSlice S64x64 ![128, 0] (A m c main_arg6) slices_S192x64_S64x64_128_0
/-- The two bands of the 128-row weight of the destination projection. -/
abbrev wv0 : FVec Ideal S64x64 .f32 := extractStridedSlice S64x64 ![0, 0] (A m c main_arg10) slices_S128x64_S64x64_0_0
abbrev wv1 : FVec Ideal S64x64 .f32 := extractStridedSlice S64x64 ![64, 0] (A m c main_arg10) slices_S128x64_S64x64_64_0
/-- The two bands of the 128-row edge-update weight. -/
abbrev we0 : FVec Ideal S64x64 .f32 := extractStridedSlice S64x64 ![0, 0] (A m c main_arg11) slices_S128x64_S64x64_0_0
abbrev we1 : FVec Ideal S64x64 .f32 := extractStridedSlice S64x64 ![64, 0] (A m c main_arg11) slices_S128x64_S64x64_64_0
/-- The three node projections. -/
abbrev h1 : FVec Ideal S50000x64 .f32 := proj (A m c main_arg1) (A m c main_arg5)
abbrev hu : FVec Ideal S50000x64 .f32 := proj (A m c main_arg1) (A m c main_arg9)
abbrev hv : FVec Ideal S50000x64 .f32 := proj2 (A m c main_arg0) (A m c main_arg1) (wv0 m c) (wv1 m c)
/-- The source projection gathered per edge, the messages, their mean per node. -/
abbrev h1g : FVec Ideal S800000x64 .f32 := takeRows (F := Ideal) (h1 m c) (A m c main_arg3)
abbrev msgs : FVec Ideal S800000x64 .f32 := msg (A m c main_arg2) (h1g m c) (A m c main_arg7)
abbrev hn : FVec Ideal S50000x64 .f32 := meanAgg (F := Ideal) (msgs m c) (A m c main_arg4)
/-- The two biases as single rows. -/
abbrev bn : FVec Ideal S1x64 .f32 := shapeCast S1x64 (A m c main_arg8) shapeCasts_S64_S1x64
abbrev be : FVec Ideal S1x64 .f32 := shapeCast S1x64 (A m c main_arg12) shapeCasts_S64_S1x64
/-- The node result. -/
abbrev hout : FVec Ideal S50000x64 .f32 := nodeOut (A m c main_arg0) (A m c main_arg1) (hn m c) (wn0 m c) (wn1 m c) (wn2 m c) (bn m c)
/-- The two projections gathered per edge, and the edge result. -/
abbrev hug : FVec Ideal S800000x64 .f32 := takeRows (F := Ideal) (hu m c) (A m c main_arg3)
abbrev hvg : FVec Ideal S800000x64 .f32 := takeRows (F := Ideal) (hv m c) (A m c main_arg4)
abbrev eout : FVec Ideal S800000x64 .f32 := edgeOut (A m c main_arg2) (hug m c) (hvg m c) (we0 m c) (we1 m c) (be m c)

/-- What a buffer holds after a host stretch, read off the stretch's operations. -/
macro "host_read" : tactic => `(tactic| (show StableHlo.after _ _ (Proc.devRef .tc _) = _; after_results))

/-- The same by one simplification pass: for a buffer computed through many operations whose intermediate results are
    shared. -/
macro "host_read_all" : tactic => `(tactic| (show StableHlo.after _ _ (Proc.devRef .tc _) = _; after_results_simp))

end Cert.Gnn.Thread

end
-- ==== Proof.KTake.lean ====
/-
  The three host gathers of the kernel program, each read off its stretch of operations from any contents of the
  buffers: the gathered buffer ends holding `take` of the projection's buffer by the index buffer.
-/
import proofs.«431017_j90924457656405_3_alg».proof.Proof.Gen.KernelIdeal.Frame
import proofs.«431017_j90924457656405_3_alg».proof.Proof.Spec
import proofs.«431017_j90924457656405_3_alg».proof.Proof.KHost
import proofs.«431017_j90924457656405_3_alg».proof.Proof.KVals
import Idealize.ShloMosaic.Lib.Pipeline.Frame
import Idealize.ShloMosaic.Lib.StableHlo.Run
import Idealize.ShloMosaic.Lib.Pipeline.Value

set_option maxRecDepth 16384

noncomputable section

namespace Cert.Gnn.Thread

open Cert.KernelIdeal Cert.KernelIdeal.Gen Cert.Gnn
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

section Typed

variable {T Tx Ta Tb Tc Ty Tz : BufTy}

/-- What a typed reference's buffer holds, at the type of the value. -/
private def rd (x : TRef sig T) (V : Valuation τ sig (Elt Ideal)) : T.Contents (Elt Ideal) :=
  x.ofBuf (V (Proc.devRef .tc x.ref))

/-- The two transports along a reference's type equation are inverse. -/
private theorem ofBuf_toBuf (x : TRef sig T) (v : T.Contents (Elt Ideal)) : x.ofBuf (x.toBuf v) = v := by
  obtain ⟨r, h, h2, h3⟩ := x
  subst h
  rfl

/-- One constant: afterwards its buffer holds the constant and every other buffer what it held. -/
private theorem step_nullary (z : TRef sig Tz) (R : Tz.Contents (Elt Ideal)) (y : TRef sig Ty) (v : Ty.Contents (Elt Ideal))
    (ops : List (HloOp τ sig (Elt Ideal))) (V : Valuation τ sig (Elt Ideal))
    (k : ∀ V' : Valuation τ sig (Elt Ideal), rd y V' = v →
      (∀ {T : BufTy} (b : TRef sig T), b.ref ≠ y.ref → rd b V' = rd b V) → rd z (after ops V') = R) :
    rd z (after (TRef.nullary y v :: ops) V) = R :=
  k _ ((congrArg y.ofBuf (nullary_result y.ref (y.toBuf v) y.dev V)).trans (ofBuf_toBuf y v))
    (fun b hb => congrArg b.ofBuf (nullary_result_ne y.ref (y.toBuf v) y.dev V hb))

/-- One operation of one operand: afterwards its result buffer holds the function of what the operand's held. -/
private theorem step_unary (z : TRef sig Tz) (R : Tz.Contents (Elt Ideal)) (x : TRef sig Tx) (y : TRef sig Ty)
    (f : Tx.Contents (Elt Ideal) → Ty.Contents (Elt Ideal))
    (ops : List (HloOp τ sig (Elt Ideal))) (V : Valuation τ sig (Elt Ideal))
    (k : ∀ V' : Valuation τ sig (Elt Ideal), rd y V' = f (rd x V) →
      (∀ {T : BufTy} (b : TRef sig T), b.ref ≠ y.ref → rd b V' = rd b V) → rd z (after ops V') = R) :
    rd z (after (TRef.unary x y f :: ops) V) = R :=
  k _ ((congrArg y.ofBuf (unary_result x.ref y.ref (fun u => y.toBuf (f (x.ofBuf u))) x.dev y.dev V)).trans (ofBuf_toBuf y _))
    (fun b hb => congrArg b.ofBuf (unary_result_ne x.ref y.ref (fun u => y.toBuf (f (x.ofBuf u))) x.dev y.dev V hb))

/-- One operation of two operands. -/
private theorem step_binary (z : TRef sig Tz) (R : Tz.Contents (Elt Ideal)) (a : TRef sig Ta) (b : TRef sig Tb) (y : TRef sig Ty)
    (f : Ta.Contents (Elt Ideal) → Tb.Contents (Elt Ideal) → Ty.Contents (Elt Ideal))
    (ops : List (HloOp τ sig (Elt Ideal))) (V : Valuation τ sig (Elt Ideal))
    (k : ∀ V' : Valuation τ sig (Elt Ideal), rd y V' = f (rd a V) (rd b V) →
      (∀ {T : BufTy} (e : TRef sig T), e.ref ≠ y.ref → rd e V' = rd e V) → rd z (after ops V') = R) :
    rd z (after (TRef.binary a b y f :: ops) V) = R :=
  k _ ((congrArg y.ofBuf (binary_result a.ref b.ref y.ref (fun u v => y.toBuf (f (a.ofBuf u) (b.ofBuf v))) a.dev b.dev y.dev V)).trans
      (ofBuf_toBuf y _))
    (fun e he => congrArg e.ofBuf
      (binary_result_ne a.ref b.ref y.ref (fun u v => y.toBuf (f (a.ofBuf u) (b.ofBuf v))) a.dev b.dev y.dev V he))

/-- One operation of three operands. -/
private theorem step_ternary (z : TRef sig Tz) (R : Tz.Contents (Elt Ideal)) (cc : TRef sig Tc) (a : TRef sig Ta) (b : TRef sig Tb)
    (y : TRef sig Ty)
    (f : Tc.Contents (Elt Ideal) → Ta.Contents (Elt Ideal) → Tb.Contents (Elt Ideal) → Ty.Contents (Elt Ideal))
    (ops : List (HloOp τ sig (Elt Ideal))) (V : Valuation τ sig (Elt Ideal))
    (k : ∀ V' : Valuation τ sig (Elt Ideal), rd y V' = f (rd cc V) (rd a V) (rd b V) →
      (∀ {T : BufTy} (e : TRef sig T), e.ref ≠ y.ref → rd e V' = rd e V) → rd z (after ops V') = R) :
    rd z (after (TRef.ternary cc a b y f :: ops) V) = R :=
  k _ ((congrArg y.ofBuf (ternary_result cc.ref a.ref b.ref y.ref (fun w u v => y.toBuf (f (cc.ofBuf w) (a.ofBuf u) (b.ofBuf v)))
        cc.dev a.dev b.dev y.dev V)).trans (ofBuf_toBuf y _))
    (fun e he => congrArg e.ofBuf
      (ternary_result_ne (c := cc.ref) (a := a.ref) (b := b.ref) (y := y.ref)
        (f := fun w u v => y.toBuf (f (cc.ofBuf w) (a.ofBuf u) (b.ofBuf v))) (hc := cc.dev) (ha := a.dev) (hb := b.dev) (hy := y.dev)
        (F := V) he))

end Typed

/-- The first host gather: `take` of the first projection's buffer by the source indices. -/
theorem take0_read (W : Valuation τ sig (Elt Ideal)) :
    StableHlo.after hostOps1 W (Proc.devRef .tc main_v8)
      = takeRows (F := Ideal) (W (Proc.devRef .tc main_v7_0)) (W (Proc.devRef .tc main_arg3)) := by
  have conv : ∀ (V W' : Valuation τ sig (Elt Ideal)),
      rd (.of main_v8 : TRef sig ⟨S800000x64, .f32⟩) V
        = takeRows (F := Ideal) (rd (.of main_v7_0 : TRef sig ⟨S50000x64, .f32⟩) W') (rd (.of main_arg3 : TRef sig ⟨S800000, .i32⟩) W') →
      V (Proc.devRef .tc main_v8) = takeRows (F := Ideal) (W' (Proc.devRef .tc main_v7_0)) (W' (Proc.devRef .tc main_arg3)) :=
    fun V W' h => h
  refine conv _ _ ?_
  clear conv
  have h_main_arg3 : rd (.of main_arg3 : TRef sig ⟨S800000, .i32⟩) W = rd (.of main_arg3 : TRef sig ⟨S800000, .i32⟩) W := rfl
  have h_main_v7_0 : rd (.of main_v7_0 : TRef sig ⟨S50000x64, .f32⟩) W = rd (.of main_v7_0 : TRef sig ⟨S50000x64, .f32⟩) W := rfl
  -- operation 0
  refine step_nullary _ _ _ _ _ _ (fun V1 hnew hfr => ?_)
  have h_main_arg3 := (hfr _ (by decide)).trans h_main_arg3
  have h_main_v7_0 := (hfr _ (by decide)).trans h_main_v7_0
  have h_main_call0_c := hnew
  clear hnew hfr
  -- operation 1
  refine step_unary _ _ _ _ _ _ _ (fun V2 hnew hfr => ?_)
  rw [h_main_call0_c] at hnew
  have h_main_arg3 := (hfr _ (by decide)).trans h_main_arg3
  have h_main_v7_0 := (hfr _ (by decide)).trans h_main_v7_0
  have h_main_call0_v0 := hnew
  clear hnew hfr
  -- operation 2
  refine step_binary _ _ _ _ _ _ _ _ (fun V3 hnew hfr => ?_)
  rw [h_main_arg3, h_main_call0_v0] at hnew
  have h_main_arg3 := (hfr _ (by decide)).trans h_main_arg3
  have h_main_v7_0 := (hfr _ (by decide)).trans h_main_v7_0
  have h_main_call0_v1 := hnew
  clear hnew hfr
  -- operation 3
  refine step_nullary _ _ _ _ _ _ (fun V4 hnew hfr => ?_)
  have h_main_arg3 := (hfr _ (by decide)).trans h_main_arg3
  have h_main_v7_0 := (hfr _ (by decide)).trans h_main_v7_0
  have h_main_call0_v1 := (hfr _ (by decide)).trans h_main_call0_v1
  have h_main_call0_c_0 := hnew
  clear hnew hfr
  -- operation 4
  refine step_unary _ _ _ _ _ _ _ (fun V5 hnew hfr => ?_)
  rw [h_main_call0_c_0] at hnew
  have h_main_arg3 := (hfr _ (by decide)).trans h_main_arg3
  have h_main_v7_0 := (hfr _ (by decide)).trans h_main_v7_0
  have h_main_call0_v1 := (hfr _ (by decide)).trans h_main_call0_v1
  have h_main_call0_v2 := hnew
  clear hnew hfr
  -- operation 5
  refine step_binary _ _ _ _ _ _ _ _ (fun V6 hnew hfr => ?_)
  rw [h_main_arg3, h_main_call0_v2] at hnew
  have h_main_arg3 := (hfr _ (by decide)).trans h_main_arg3
  have h_main_v7_0 := (hfr _ (by decide)).trans h_main_v7_0
  have h_main_call0_v1 := (hfr _ (by decide)).trans h_main_call0_v1
  have h_main_call0_v3 := hnew
  clear hnew hfr
  -- operation 6
  refine step_ternary _ _ _ _ _ _ _ _ _ (fun V7 hnew hfr => ?_)
  rw [h_main_call0_v1, h_main_call0_v3, h_main_arg3] at hnew
  have h_main_v7_0 := (hfr _ (by decide)).trans h_main_v7_0
  have h_main_call0_v4 := hnew
  clear hnew hfr
  -- operation 7
  refine step_unary _ _ _ _ _ _ _ (fun V8 hnew hfr => ?_)
  rw [h_main_call0_v4] at hnew
  have h_main_v7_0 := (hfr _ (by decide)).trans h_main_v7_0
  have h_main_call0_v5 := hnew
  clear hnew hfr
  -- operation 8
  refine step_nullary _ _ _ _ _ _ (fun V9 hnew hfr => ?_)
  have h_main_v7_0 := (hfr _ (by decide)).trans h_main_v7_0
  have h_main_call0_v5 := (hfr _ (by decide)).trans h_main_call0_v5
  have h_main_call0_c_1 := hnew
  clear hnew hfr
  -- operation 9
  refine step_nullary _ _ _ _ _ _ (fun V10 hnew hfr => ?_)
  have h_main_v7_0 := (hfr _ (by decide)).trans h_main_v7_0
  have h_main_call0_v5 := (hfr _ (by decide)).trans h_main_call0_v5
  have h_main_call0_c_1 := (hfr _ (by decide)).trans h_main_call0_c_1
  have h_main_call0_c_2 := hnew
  clear hnew hfr
  -- operation 10
  refine step_unary _ _ _ _ _ _ _ (fun V11 hnew hfr => ?_)
  rw [h_main_call0_c_2] at hnew
  have h_main_v7_0 := (hfr _ (by decide)).trans h_main_v7_0
  have h_main_call0_v5 := (hfr _ (by decide)).trans h_main_call0_v5
  have h_main_call0_c_1 := (hfr _ (by decide)).trans h_main_call0_c_1
  have h_main_call0_v6 := hnew
  clear hnew hfr
  -- operation 11
  refine step_binary _ _ _ _ _ _ _ _ (fun V12 hnew hfr => ?_)
  rw [h_main_call0_v5, h_main_call0_v6] at hnew
  have h_main_v7_0 := (hfr _ (by decide)).trans h_main_v7_0
  have h_main_call0_v5 := (hfr _ (by decide)).trans h_main_call0_v5
  have h_main_call0_c_1 := (hfr _ (by decide)).trans h_main_call0_c_1
  have h_main_call0_v7 := hnew
  clear hnew hfr
  -- operation 12
  refine step_unary _ _ _ _ _ _ _ (fun V13 hnew hfr => ?_)
  rw [h_main_call0_c_1] at hnew
  have h_main_v7_0 := (hfr _ (by decide)).trans h_main_v7_0
  have h_main_call0_v5 := (hfr _ (by decide)).trans h_main_call0_v5
  have h_main_call0_v7 := (hfr _ (by decide)).trans h_main_call0_v7
  have h_main_call0_v8 := hnew
  clear hnew hfr
  -- operation 13
  refine step_unary _ _ _ _ _ _ _ (fun V14 hnew hfr => ?_)
  rw [h_main_call0_v8] at hnew
  have h_main_v7_0 := (hfr _ (by decide)).trans h_main_v7_0
  have h_main_call0_v5 := (hfr _ (by decide)).trans h_main_call0_v5
  have h_main_call0_v7 := (hfr _ (by decide)).trans h_main_call0_v7
  have h_main_call0_v9 := hnew
  clear hnew hfr
  -- operation 14
  refine step_binary _ _ _ _ _ _ _ _ (fun V15 hnew hfr => ?_)
  rw [h_main_call0_v5, h_main_call0_v9] at hnew
  have h_main_v7_0 := (hfr _ (by decide)).trans h_main_v7_0
  have h_main_call0_v5 := (hfr _ (by decide)).trans h_main_call0_v5
  have h_main_call0_v7 := (hfr _ (by decide)).trans h_main_call0_v7
  have h_main_call0_v10 := hnew
  clear hnew hfr
  -- operation 15
  refine step_binary _ _ _ _ _ _ _ _ (fun V16 hnew hfr => ?_)
  rw [h_main_call0_v7, h_main_call0_v10] at hnew
  have h_main_v7_0 := (hfr _ (by decide)).trans h_main_v7_0
  have h_main_call0_v5 := (hfr _ (by decide)).trans h_main_call0_v5
  have h_main_call0_v11 := hnew
  clear hnew hfr
  -- operation 16
  refine step_nullary _ _ _ _ _ _ (fun V17 hnew hfr => ?_)
  have h_main_v7_0 := (hfr _ (by decide)).trans h_main_v7_0
  have h_main_call0_v5 := (hfr _ (by decide)).trans h_main_call0_v5
  have h_main_call0_v11 := (hfr _ (by decide)).trans h_main_call0_v11
  have h_main_call0_c_3 := hnew
  clear hnew hfr
  -- operation 17
  refine step_binary _ _ _ _ _ _ _ _ (fun V18 hnew hfr => ?_)
  rw [h_main_call0_v11, h_main_call0_c_3] at hnew
  have h_main_v7_0 := (hfr _ (by decide)).trans h_main_v7_0
  have h_main_call0_v5 := (hfr _ (by decide)).trans h_main_call0_v5
  have h_main_call0_v12 := hnew
  clear hnew hfr
  -- operation 18
  refine step_binary _ _ _ _ _ _ _ _ (fun V19 hnew hfr => ?_)
  rw [h_main_v7_0, h_main_call0_v5] at hnew
  have h_main_call0_v12 := (hfr _ (by decide)).trans h_main_call0_v12
  have h_main_call0_v13 := hnew
  clear hnew hfr
  -- operation 19
  refine step_unary _ _ _ _ _ _ _ (fun V20 hnew hfr => ?_)
  rw [h_main_call0_v12] at hnew
  have h_main_call0_v13 := (hfr _ (by decide)).trans h_main_call0_v13
  have h_main_call0_v14 := hnew
  clear hnew hfr
  -- operation 20
  refine step_nullary _ _ _ _ _ _ (fun V21 hnew hfr => ?_)
  have h_main_call0_v13 := (hfr _ (by decide)).trans h_main_call0_v13
  have h_main_call0_v14 := (hfr _ (by decide)).trans h_main_call0_v14
  have h_main_call0_cst := hnew
  clear hnew hfr
  -- operation 21
  refine step_unary _ _ _ _ _ _ _ (fun V22 hnew hfr => ?_)
  rw [h_main_call0_cst] at hnew
  have h_main_call0_v13 := (hfr _ (by decide)).trans h_main_call0_v13
  have h_main_call0_v14 := (hfr _ (by decide)).trans h_main_call0_v14
  have h_main_call0_v15 := hnew
  clear hnew hfr
  -- operation 22
  refine step_ternary _ _ _ _ _ _ _ _ _ (fun V23 hnew hfr => ?_)
  rw [h_main_call0_v14, h_main_call0_v13, h_main_call0_v15] at hnew
  have h_main_v8 := hnew
  clear hnew hfr
  refine h_main_v8.trans ?_
  unfold takeRows validRows gatherRows startIdx
  with_reducible rfl

/-- The second host gather: `take` of the second projection's buffer by the source indices. -/
theorem take1_read (W : Valuation τ sig (Elt Ideal)) :
    StableHlo.after hostOps3 W (Proc.devRef .tc main_v24)
      = takeRows (F := Ideal) (W (Proc.devRef .tc main_v7_1)) (W (Proc.devRef .tc main_arg3)) := by
  have conv : ∀ (V W' : Valuation τ sig (Elt Ideal)),
      rd (.of main_v24 : TRef sig ⟨S800000x64, .f32⟩) V
        = takeRows (F := Ideal) (rd (.of main_v7_1 : TRef sig ⟨S50000x64, .f32⟩) W') (rd (.of main_arg3 : TRef sig ⟨S800000, .i32⟩) W') →
      V (Proc.devRef .tc main_v24) = takeRows (F := Ideal) (W' (Proc.devRef .tc main_v7_1)) (W' (Proc.devRef .tc main_arg3)) :=
    fun V W' h => h
  refine conv _ _ ?_
  clear conv
  have h_main_arg3 : rd (.of main_arg3 : TRef sig ⟨S800000, .i32⟩) W = rd (.of main_arg3 : TRef sig ⟨S800000, .i32⟩) W := rfl
  have h_main_v7_1 : rd (.of main_v7_1 : TRef sig ⟨S50000x64, .f32⟩) W = rd (.of main_v7_1 : TRef sig ⟨S50000x64, .f32⟩) W := rfl
  -- operation 0
  refine step_nullary _ _ _ _ _ _ (fun V1 hnew hfr => ?_)
  have h_main_arg3 := (hfr _ (by decide)).trans h_main_arg3
  have h_main_v7_1 := (hfr _ (by decide)).trans h_main_v7_1
  have h_main_call1_c := hnew
  clear hnew hfr
  -- operation 1
  refine step_unary _ _ _ _ _ _ _ (fun V2 hnew hfr => ?_)
  rw [h_main_call1_c] at hnew
  have h_main_arg3 := (hfr _ (by decide)).trans h_main_arg3
  have h_main_v7_1 := (hfr _ (by decide)).trans h_main_v7_1
  have h_main_call1_v0 := hnew
  clear hnew hfr
  -- operation 2
  refine step_binary _ _ _ _ _ _ _ _ (fun V3 hnew hfr => ?_)
  rw [h_main_arg3, h_main_call1_v0] at hnew
  have h_main_arg3 := (hfr _ (by decide)).trans h_main_arg3
  have h_main_v7_1 := (hfr _ (by decide)).trans h_main_v7_1
  have h_main_call1_v1 := hnew
  clear hnew hfr
  -- operation 3
  refine step_nullary _ _ _ _ _ _ (fun V4 hnew hfr => ?_)
  have h_main_arg3 := (hfr _ (by decide)).trans h_main_arg3
  have h_main_v7_1 := (hfr _ (by decide)).trans h_main_v7_1
  have h_main_call1_v1 := (hfr _ (by decide)).trans h_main_call1_v1
  have h_main_call1_c_0 := hnew
  clear hnew hfr
  -- operation 4
  refine step_unary _ _ _ _ _ _ _ (fun V5 hnew hfr => ?_)
  rw [h_main_call1_c_0] at hnew
  have h_main_arg3 := (hfr _ (by decide)).trans h_main_arg3
  have h_main_v7_1 := (hfr _ (by decide)).trans h_main_v7_1
  have h_main_call1_v1 := (hfr _ (by decide)).trans h_main_call1_v1
  have h_main_call1_v2 := hnew
  clear hnew hfr
  -- operation 5
  refine step_binary _ _ _ _ _ _ _ _ (fun V6 hnew hfr => ?_)
  rw [h_main_arg3, h_main_call1_v2] at hnew
  have h_main_arg3 := (hfr _ (by decide)).trans h_main_arg3
  have h_main_v7_1 := (hfr _ (by decide)).trans h_main_v7_1
  have h_main_call1_v1 := (hfr _ (by decide)).trans h_main_call1_v1
  have h_main_call1_v3 := hnew
  clear hnew hfr
  -- operation 6
  refine step_ternary _ _ _ _ _ _ _ _ _ (fun V7 hnew hfr => ?_)
  rw [h_main_call1_v1, h_main_call1_v3, h_main_arg3] at hnew
  have h_main_v7_1 := (hfr _ (by decide)).trans h_main_v7_1
  have h_main_call1_v4 := hnew
  clear hnew hfr
  -- operation 7
  refine step_unary _ _ _ _ _ _ _ (fun V8 hnew hfr => ?_)
  rw [h_main_call1_v4] at hnew
  have h_main_v7_1 := (hfr _ (by decide)).trans h_main_v7_1
  have h_main_call1_v5 := hnew
  clear hnew hfr
  -- operation 8
  refine step_nullary _ _ _ _ _ _ (fun V9 hnew hfr => ?_)
  have h_main_v7_1 := (hfr _ (by decide)).trans h_main_v7_1
  have h_main_call1_v5 := (hfr _ (by decide)).trans h_main_call1_v5
  have h_main_call1_c_1 := hnew
  clear hnew hfr
  -- operation 9
  refine step_nullary _ _ _ _ _ _ (fun V10 hnew hfr => ?_)
  have h_main_v7_1 := (hfr _ (by decide)).trans h_main_v7_1
  have h_main_call1_v5 := (hfr _ (by decide)).trans h_main_call1_v5
  have h_main_call1_c_1 := (hfr _ (by decide)).trans h_main_call1_c_1
  have h_main_call1_c_2 := hnew
  clear hnew hfr
  -- operation 10
  refine step_unary _ _ _ _ _ _ _ (fun V11 hnew hfr => ?_)
  rw [h_main_call1_c_2] at hnew
  have h_main_v7_1 := (hfr _ (by decide)).trans h_main_v7_1
  have h_main_call1_v5 := (hfr _ (by decide)).trans h_main_call1_v5
  have h_main_call1_c_1 := (hfr _ (by decide)).trans h_main_call1_c_1
  have h_main_call1_v6 := hnew
  clear hnew hfr
  -- operation 11
  refine step_binary _ _ _ _ _ _ _ _ (fun V12 hnew hfr => ?_)
  rw [h_main_call1_v5, h_main_call1_v6] at hnew
  have h_main_v7_1 := (hfr _ (by decide)).trans h_main_v7_1
  have h_main_call1_v5 := (hfr _ (by decide)).trans h_main_call1_v5
  have h_main_call1_c_1 := (hfr _ (by decide)).trans h_main_call1_c_1
  have h_main_call1_v7 := hnew
  clear hnew hfr
  -- operation 12
  refine step_unary _ _ _ _ _ _ _ (fun V13 hnew hfr => ?_)
  rw [h_main_call1_c_1] at hnew
  have h_main_v7_1 := (hfr _ (by decide)).trans h_main_v7_1
  have h_main_call1_v5 := (hfr _ (by decide)).trans h_main_call1_v5
  have h_main_call1_v7 := (hfr _ (by decide)).trans h_main_call1_v7
  have h_main_call1_v8 := hnew
  clear hnew hfr
  -- operation 13
  refine step_unary _ _ _ _ _ _ _ (fun V14 hnew hfr => ?_)
  rw [h_main_call1_v8] at hnew
  have h_main_v7_1 := (hfr _ (by decide)).trans h_main_v7_1
  have h_main_call1_v5 := (hfr _ (by decide)).trans h_main_call1_v5
  have h_main_call1_v7 := (hfr _ (by decide)).trans h_main_call1_v7
  have h_main_call1_v9 := hnew
  clear hnew hfr
  -- operation 14
  refine step_binary _ _ _ _ _ _ _ _ (fun V15 hnew hfr => ?_)
  rw [h_main_call1_v5, h_main_call1_v9] at hnew
  have h_main_v7_1 := (hfr _ (by decide)).trans h_main_v7_1
  have h_main_call1_v5 := (hfr _ (by decide)).trans h_main_call1_v5
  have h_main_call1_v7 := (hfr _ (by decide)).trans h_main_call1_v7
  have h_main_call1_v10 := hnew
  clear hnew hfr
  -- operation 15
  refine step_binary _ _ _ _ _ _ _ _ (fun V16 hnew hfr => ?_)
  rw [h_main_call1_v7, h_main_call1_v10] at hnew
  have h_main_v7_1 := (hfr _ (by decide)).trans h_main_v7_1
  have h_main_call1_v5 := (hfr _ (by decide)).trans h_main_call1_v5
  have h_main_call1_v11 := hnew
  clear hnew hfr
  -- operation 16
  refine step_nullary _ _ _ _ _ _ (fun V17 hnew hfr => ?_)
  have h_main_v7_1 := (hfr _ (by decide)).trans h_main_v7_1
  have h_main_call1_v5 := (hfr _ (by decide)).trans h_main_call1_v5
  have h_main_call1_v11 := (hfr _ (by decide)).trans h_main_call1_v11
  have h_main_call1_c_3 := hnew
  clear hnew hfr
  -- operation 17
  refine step_binary _ _ _ _ _ _ _ _ (fun V18 hnew hfr => ?_)
  rw [h_main_call1_v11, h_main_call1_c_3] at hnew
  have h_main_v7_1 := (hfr _ (by decide)).trans h_main_v7_1
  have h_main_call1_v5 := (hfr _ (by decide)).trans h_main_call1_v5
  have h_main_call1_v12 := hnew
  clear hnew hfr
  -- operation 18
  refine step_binary _ _ _ _ _ _ _ _ (fun V19 hnew hfr => ?_)
  rw [h_main_v7_1, h_main_call1_v5] at hnew
  have h_main_call1_v12 := (hfr _ (by decide)).trans h_main_call1_v12
  have h_main_call1_v13 := hnew
  clear hnew hfr
  -- operation 19
  refine step_unary _ _ _ _ _ _ _ (fun V20 hnew hfr => ?_)
  rw [h_main_call1_v12] at hnew
  have h_main_call1_v13 := (hfr _ (by decide)).trans h_main_call1_v13
  have h_main_call1_v14 := hnew
  clear hnew hfr
  -- operation 20
  refine step_nullary _ _ _ _ _ _ (fun V21 hnew hfr => ?_)
  have h_main_call1_v13 := (hfr _ (by decide)).trans h_main_call1_v13
  have h_main_call1_v14 := (hfr _ (by decide)).trans h_main_call1_v14
  have h_main_call1_cst := hnew
  clear hnew hfr
  -- operation 21
  refine step_unary _ _ _ _ _ _ _ (fun V22 hnew hfr => ?_)
  rw [h_main_call1_cst] at hnew
  have h_main_call1_v13 := (hfr _ (by decide)).trans h_main_call1_v13
  have h_main_call1_v14 := (hfr _ (by decide)).trans h_main_call1_v14
  have h_main_call1_v15 := hnew
  clear hnew hfr
  -- operation 22
  refine step_ternary _ _ _ _ _ _ _ _ _ (fun V23 hnew hfr => ?_)
  rw [h_main_call1_v14, h_main_call1_v13, h_main_call1_v15] at hnew
  have h_main_v24 := hnew
  clear hnew hfr
  refine h_main_v24.trans ?_
  unfold takeRows validRows gatherRows startIdx
  with_reducible rfl

/-- The third host gather: `take` of the third projection's buffer by the destination indices. -/
theorem take2_read (W : Valuation τ sig (Elt Ideal)) :
    StableHlo.after hostOps3_1 W (Proc.devRef .tc main_v25)
      = takeRows (F := Ideal) (W (Proc.devRef .tc main_v7_2)) (W (Proc.devRef .tc main_arg4)) := by
  have conv : ∀ (V W' : Valuation τ sig (Elt Ideal)),
      rd (.of main_v25 : TRef sig ⟨S800000x64, .f32⟩) V
        = takeRows (F := Ideal) (rd (.of main_v7_2 : TRef sig ⟨S50000x64, .f32⟩) W') (rd (.of main_arg4 : TRef sig ⟨S800000, .i32⟩) W') →
      V (Proc.devRef .tc main_v25) = takeRows (F := Ideal) (W' (Proc.devRef .tc main_v7_2)) (W' (Proc.devRef .tc main_arg4)) :=
    fun V W' h => h
  refine conv _ _ ?_
  clear conv
  have h_main_arg4 : rd (.of main_arg4 : TRef sig ⟨S800000, .i32⟩) W = rd (.of main_arg4 : TRef sig ⟨S800000, .i32⟩) W := rfl
  have h_main_v7_2 : rd (.of main_v7_2 : TRef sig ⟨S50000x64, .f32⟩) W = rd (.of main_v7_2 : TRef sig ⟨S50000x64, .f32⟩) W := rfl
  -- operation 0
  refine step_nullary _ _ _ _ _ _ (fun V1 hnew hfr => ?_)
  have h_main_arg4 := (hfr _ (by decide)).trans h_main_arg4
  have h_main_v7_2 := (hfr _ (by decide)).trans h_main_v7_2
  have h_main_call2_c := hnew
  clear hnew hfr
  -- operation 1
  refine step_unary _ _ _ _ _ _ _ (fun V2 hnew hfr => ?_)
  rw [h_main_call2_c] at hnew
  have h_main_arg4 := (hfr _ (by decide)).trans h_main_arg4
  have h_main_v7_2 := (hfr _ (by decide)).trans h_main_v7_2
  have h_main_call2_v0 := hnew
  clear hnew hfr
  -- operation 2
  refine step_binary _ _ _ _ _ _ _ _ (fun V3 hnew hfr => ?_)
  rw [h_main_arg4, h_main_call2_v0] at hnew
  have h_main_arg4 := (hfr _ (by decide)).trans h_main_arg4
  have h_main_v7_2 := (hfr _ (by decide)).trans h_main_v7_2
  have h_main_call2_v1 := hnew
  clear hnew hfr
  -- operation 3
  refine step_nullary _ _ _ _ _ _ (fun V4 hnew hfr => ?_)
  have h_main_arg4 := (hfr _ (by decide)).trans h_main_arg4
  have h_main_v7_2 := (hfr _ (by decide)).trans h_main_v7_2
  have h_main_call2_v1 := (hfr _ (by decide)).trans h_main_call2_v1
  have h_main_call2_c_0 := hnew
  clear hnew hfr
  -- operation 4
  refine step_unary _ _ _ _ _ _ _ (fun V5 hnew hfr => ?_)
  rw [h_main_call2_c_0] at hnew
  have h_main_arg4 := (hfr _ (by decide)).trans h_main_arg4
  have h_main_v7_2 := (hfr _ (by decide)).trans h_main_v7_2
  have h_main_call2_v1 := (hfr _ (by decide)).trans h_main_call2_v1
  have h_main_call2_v2 := hnew
  clear hnew hfr
  -- operation 5
  refine step_binary _ _ _ _ _ _ _ _ (fun V6 hnew hfr => ?_)
  rw [h_main_arg4, h_main_call2_v2] at hnew
  have h_main_arg4 := (hfr _ (by decide)).trans h_main_arg4
  have h_main_v7_2 := (hfr _ (by decide)).trans h_main_v7_2
  have h_main_call2_v1 := (hfr _ (by decide)).trans h_main_call2_v1
  have h_main_call2_v3 := hnew
  clear hnew hfr
  -- operation 6
  refine step_ternary _ _ _ _ _ _ _ _ _ (fun V7 hnew hfr => ?_)
  rw [h_main_call2_v1, h_main_call2_v3, h_main_arg4] at hnew
  have h_main_v7_2 := (hfr _ (by decide)).trans h_main_v7_2
  have h_main_call2_v4 := hnew
  clear hnew hfr
  -- operation 7
  refine step_unary _ _ _ _ _ _ _ (fun V8 hnew hfr => ?_)
  rw [h_main_call2_v4] at hnew
  have h_main_v7_2 := (hfr _ (by decide)).trans h_main_v7_2
  have h_main_call2_v5 := hnew
  clear hnew hfr
  -- operation 8
  refine step_nullary _ _ _ _ _ _ (fun V9 hnew hfr => ?_)
  have h_main_v7_2 := (hfr _ (by decide)).trans h_main_v7_2
  have h_main_call2_v5 := (hfr _ (by decide)).trans h_main_call2_v5
  have h_main_call2_c_1 := hnew
  clear hnew hfr
  -- operation 9
  refine step_nullary _ _ _ _ _ _ (fun V10 hnew hfr => ?_)
  have h_main_v7_2 := (hfr _ (by decide)).trans h_main_v7_2
  have h_main_call2_v5 := (hfr _ (by decide)).trans h_main_call2_v5
  have h_main_call2_c_1 := (hfr _ (by decide)).trans h_main_call2_c_1
  have h_main_call2_c_2 := hnew
  clear hnew hfr
  -- operation 10
  refine step_unary _ _ _ _ _ _ _ (fun V11 hnew hfr => ?_)
  rw [h_main_call2_c_2] at hnew
  have h_main_v7_2 := (hfr _ (by decide)).trans h_main_v7_2
  have h_main_call2_v5 := (hfr _ (by decide)).trans h_main_call2_v5
  have h_main_call2_c_1 := (hfr _ (by decide)).trans h_main_call2_c_1
  have h_main_call2_v6 := hnew
  clear hnew hfr
  -- operation 11
  refine step_binary _ _ _ _ _ _ _ _ (fun V12 hnew hfr => ?_)
  rw [h_main_call2_v5, h_main_call2_v6] at hnew
  have h_main_v7_2 := (hfr _ (by decide)).trans h_main_v7_2
  have h_main_call2_v5 := (hfr _ (by decide)).trans h_main_call2_v5
  have h_main_call2_c_1 := (hfr _ (by decide)).trans h_main_call2_c_1
  have h_main_call2_v7 := hnew
  clear hnew hfr
  -- operation 12
  refine step_unary _ _ _ _ _ _ _ (fun V13 hnew hfr => ?_)
  rw [h_main_call2_c_1] at hnew
  have h_main_v7_2 := (hfr _ (by decide)).trans h_main_v7_2
  have h_main_call2_v5 := (hfr _ (by decide)).trans h_main_call2_v5
  have h_main_call2_v7 := (hfr _ (by decide)).trans h_main_call2_v7
  have h_main_call2_v8 := hnew
  clear hnew hfr
  -- operation 13
  refine step_unary _ _ _ _ _ _ _ (fun V14 hnew hfr => ?_)
  rw [h_main_call2_v8] at hnew
  have h_main_v7_2 := (hfr _ (by decide)).trans h_main_v7_2
  have h_main_call2_v5 := (hfr _ (by decide)).trans h_main_call2_v5
  have h_main_call2_v7 := (hfr _ (by decide)).trans h_main_call2_v7
  have h_main_call2_v9 := hnew
  clear hnew hfr
  -- operation 14
  refine step_binary _ _ _ _ _ _ _ _ (fun V15 hnew hfr => ?_)
  rw [h_main_call2_v5, h_main_call2_v9] at hnew
  have h_main_v7_2 := (hfr _ (by decide)).trans h_main_v7_2
  have h_main_call2_v5 := (hfr _ (by decide)).trans h_main_call2_v5
  have h_main_call2_v7 := (hfr _ (by decide)).trans h_main_call2_v7
  have h_main_call2_v10 := hnew
  clear hnew hfr
  -- operation 15
  refine step_binary _ _ _ _ _ _ _ _ (fun V16 hnew hfr => ?_)
  rw [h_main_call2_v7, h_main_call2_v10] at hnew
  have h_main_v7_2 := (hfr _ (by decide)).trans h_main_v7_2
  have h_main_call2_v5 := (hfr _ (by decide)).trans h_main_call2_v5
  have h_main_call2_v11 := hnew
  clear hnew hfr
  -- operation 16
  refine step_nullary _ _ _ _ _ _ (fun V17 hnew hfr => ?_)
  have h_main_v7_2 := (hfr _ (by decide)).trans h_main_v7_2
  have h_main_call2_v5 := (hfr _ (by decide)).trans h_main_call2_v5
  have h_main_call2_v11 := (hfr _ (by decide)).trans h_main_call2_v11
  have h_main_call2_c_3 := hnew
  clear hnew hfr
  -- operation 17
  refine step_binary _ _ _ _ _ _ _ _ (fun V18 hnew hfr => ?_)
  rw [h_main_call2_v11, h_main_call2_c_3] at hnew
  have h_main_v7_2 := (hfr _ (by decide)).trans h_main_v7_2
  have h_main_call2_v5 := (hfr _ (by decide)).trans h_main_call2_v5
  have h_main_call2_v12 := hnew
  clear hnew hfr
  -- operation 18
  refine step_binary _ _ _ _ _ _ _ _ (fun V19 hnew hfr => ?_)
  rw [h_main_v7_2, h_main_call2_v5] at hnew
  have h_main_call2_v12 := (hfr _ (by decide)).trans h_main_call2_v12
  have h_main_call2_v13 := hnew
  clear hnew hfr
  -- operation 19
  refine step_unary _ _ _ _ _ _ _ (fun V20 hnew hfr => ?_)
  rw [h_main_call2_v12] at hnew
  have h_main_call2_v13 := (hfr _ (by decide)).trans h_main_call2_v13
  have h_main_call2_v14 := hnew
  clear hnew hfr
  -- operation 20
  refine step_nullary _ _ _ _ _ _ (fun V21 hnew hfr => ?_)
  have h_main_call2_v13 := (hfr _ (by decide)).trans h_main_call2_v13
  have h_main_call2_v14 := (hfr _ (by decide)).trans h_main_call2_v14
  have h_main_call2_cst := hnew
  clear hnew hfr
  -- operation 21
  refine step_unary _ _ _ _ _ _ _ (fun V22 hnew hfr => ?_)
  rw [h_main_call2_cst] at hnew
  have h_main_call2_v13 := (hfr _ (by decide)).trans h_main_call2_v13
  have h_main_call2_v14 := (hfr _ (by decide)).trans h_main_call2_v14
  have h_main_call2_v15 := hnew
  clear hnew hfr
  -- operation 22
  refine step_ternary _ _ _ _ _ _ _ _ _ (fun V23 hnew hfr => ?_)
  rw [h_main_call2_v14, h_main_call2_v13, h_main_call2_v15] at hnew
  have h_main_v25 := hnew
  clear hnew hfr
  refine h_main_v25.trans ?_
  unfold takeRows validRows gatherRows startIdx
  with_reducible rfl

end Cert.Gnn.Thread

end
-- ==== Proof.Region0.lean ====
import proofs.«431017_j90924457656405_3_alg».proof.Proof.Gen.KernelIdeal.Frame
import proofs.«431017_j90924457656405_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gnn.Region0

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

/-! # Region 0: the three node projections `X · Wᵤ`, `X · Wₙᵤ`, `S · Wₙᵥ[0:64] + X · Wₙᵥ[64:128]`, 5000 rows a block -/

/-! ## The matrix product of a 5000-row block, read at an index -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block's product with a 64 × 64 matrix into the zero accumulator, at entry `(p, q)`: the sum over the 64 shared
    coordinates. -/
theorem matmul_at (a : FVec Ideal S5000x64 .bf16) (b : FVec Ideal S64x64 .bf16) (p : Fin 5000) (q : Fin 64) :
    matmul dot_S5000x64_S64x64_S5000x64_1_0_0_1_n_n none a b (constant S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The first stored value at entry `(p, q)` of the block: the node block's product with the first weight. -/
theorem pay2_at (x0 : Vec Ideal S5000x64 .f32) (x2 : Vec Ideal S64x64 .f32) (p : Fin 5000) (q : Fin 64) :
    k0_pay2 x0 x2 (ix2 p q) = ∑ k : Fin 64, x0 (ix2 p k) * x2 (ix2 k q) := by
  unfold k0_pay2 k0_pay1
  refine (matmul_at _ _ p q).trans ?_
  rfl

/-- The second stored value at entry `(p, q)` of the block: the node block's product with the second weight. -/
theorem pay3_at (x0 : Vec Ideal S5000x64 .f32) (x3 : Vec Ideal S64x64 .f32) (p : Fin 5000) (q : Fin 64) :
    k0_pay3 x0 x3 (ix2 p q) = ∑ k : Fin 64, x0 (ix2 p k) * x3 (ix2 k q) := by
  unfold k0_pay3 k0_pay1
  refine (matmul_at _ _ p q).trans ?_
  rfl

/-- The third stored value at entry `(p, q)` of the block: the skip block's product with one weight plus the node
    block's product with the other. -/
theorem pay4_at (x0 x1 : Vec Ideal S5000x64 .f32) (x4 x5 : Vec Ideal S64x64 .f32) (p : Fin 5000) (q : Fin 64) :
    k0_pay4 x0 x1 x4 x5 (ix2 p q)
      = (∑ k : Fin 64, x1 (ix2 p k) * x4 (ix2 k q)) + (∑ k : Fin 64, x0 (ix2 p k) * x5 (ix2 k q)) := by
  unfold k0_pay4 k0_pay1
  refine (congrArg₂ (· + ·) (matmul_at _ _ p q) (matmul_at _ _ p q)).trans ?_
  rw [shapeCast_self, shapeCast_self]
  rfl

/-! ## From the blocks to the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 10 grid points: the node block, the skip block and the three output blocks of point
    `t` are all block `t` along the rows; each of the four weights is one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of block `t` is row `5000 t + p` of the array. -/
abbrev arow (t : Fin cfg0.N) (p : Fin 5000) : Fin 50000 := ⟨t.val * 5000 + p.val, by
  have h : t.val < 10 := t.isLt
  have := p.isLt; omega⟩

/-- Entry `(p, k)` of the node-feature block of point `t` is entry `(5000 t + p, k)` of the node features. -/
theorem blkX (c : Dev nD) (t : Fin cfg0.N) (p : Fin 5000) (k : Fin 64) :
    iblk0 V c 0 t (ix2 p k) = V c main_arg1 (ix2 (arow t p) k) := by
  obtain ⟨e0, e1, e2, e3, -⟩ := idx_facts t
  show V c main_arg1 (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

/-- Entry `(p, k)` of the skip-feature block of point `t` is entry `(5000 t + p, k)` of the skip features. -/
theorem blkS (c : Dev nD) (t : Fin cfg0.N) (p : Fin 5000) (k : Fin 64) :
    iblk0 V c 1 t (ix2 p k) = V c main_arg0 (ix2 (arow t p) k) := by
  obtain ⟨e0, e1, e2, e3, -⟩ := idx_facts t
  show V c main_arg0 (((cfg0.win 1).blk t).view.emb (ix2 p k)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * k.val = k.val; omega

/-- The first weight's block at every point is the whole weight. -/
theorem blkW2 (c : Dev nD) (t : Fin cfg0.N) (k : Fin 64) (q : Fin 64) :
    iblk0 V c 2 t (ix2 k q) = V c main_arg5 (ix2 k q) := by
  obtain ⟨-, -, -, -, e4, e5, e6, e7, e8, e9, e10, e11, -⟩ := idx_facts t
  show V c main_arg5 (((cfg0.win 2).blk t).view.emb (ix2 k q)) = _
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

/-- The second weight's block at every point is the whole weight. -/
theorem blkW3 (c : Dev nD) (t : Fin cfg0.N) (k : Fin 64) (q : Fin 64) :
    iblk0 V c 3 t (ix2 k q) = V c main_arg9 (ix2 k q) := by
  obtain ⟨-, -, -, -, e4, e5, e6, e7, e8, e9, e10, e11, -⟩ := idx_facts t
  show V c main_arg9 (((cfg0.win 3).blk t).view.emb (ix2 k q)) = _
  refine congrArg _ (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

/-- The third weight's block at every point is the whole weight. -/
theorem blkW4 (c : Dev nD) (t : Fin cfg0.N) (k : Fin 64) (q : Fin 64) :
    iblk0 V c 4 t (ix2 k q) = V c main_v3 (ix2 k q) := by
  obtain ⟨-, -, -, -, e4, e5, e6, e7, e8, e9, e10, e11, -⟩ := idx_facts t
  show V c main_v3 (((cfg0.win 4).blk t).view.emb (ix2 k q)) = _
  refine congrArg _ (funext fun a => Fin.ext ?_)
  match a with
  | ⟨0, _⟩ => show win0_4.index t (0 : Fin 2) * 64 + 1 * k.val = k.val; omega
  | ⟨1, _⟩ => show win0_4.index t (1 : Fin 2) * 64 + 1 * q.val = q.val; omega

/-- The fourth weight's block at every point is the whole weight. -/
theorem blkW5 (c : Dev nD) (t : Fin cfg0.N) (k : Fin 64) (q : Fin 64) :
    iblk0 V c 5 t (ix2 k q) = V c main_v4 (ix2 k q) := by
  obtain ⟨-, -, -, -, e4, e5, e6, e7, e8, e9, e10, e11, -⟩ := idx_facts t
  show V c main_v4 (((cfg0.win 5).blk t).view.emb (ix2 k q)) = _
  refine congrArg _ (funext fun a => Fin.ext ?_)
  match a with
  | ⟨0, _⟩ => show win0_5.index t (0 : Fin 2) * 64 + 1 * k.val = k.val; omega
  | ⟨1, _⟩ => show win0_5.index t (1 : Fin 2) * 64 + 1 * q.val = q.val; omega

/-- Entry `(p, q)` of output block `t` of array 6 is entry `(5000 t + p, q)` of the array. -/
theorem emb6 (t : Fin cfg0.N) (p : Fin 5000) (q : Fin 64) :
    ((cfg0.win 6).blk t).view.emb (ix2 p q) = ix2 (arow t p) q := by
  obtain ⟨-, -, -, -, -, -, -, -, -, -, -, -, e12, e13, e14, e15, e16, e17⟩ := idx_facts t
  funext a; apply Fin.ext
  match a with
  | ⟨0, _⟩ => show win0_6.index t (0 : Fin 2) * 5000 + 1 * p.val = t.val * 5000 + p.val; omega
  | ⟨1, _⟩ => show win0_6.index t (1 : Fin 2) * 64 + 1 * q.val = q.val; omega

/-- Entry `(p, q)` of output block `t` of array 7 is entry `(5000 t + p, q)` of the array. -/
theorem emb7 (t : Fin cfg0.N) (p : Fin 5000) (q : Fin 64) :
    ((cfg0.win 7).blk t).view.emb (ix2 p q) = ix2 (arow t p) q := by
  obtain ⟨-, -, -, -, -, -, -, -, -, -, -, -, e12, e13, e14, e15, e16, e17⟩ := idx_facts t
  funext a; apply Fin.ext
  match a with
  | ⟨0, _⟩ => show win0_7.index t (0 : Fin 2) * 5000 + 1 * p.val = t.val * 5000 + p.val; omega
  | ⟨1, _⟩ => show win0_7.index t (1 : Fin 2) * 64 + 1 * q.val = q.val; omega

/-- Entry `(p, q)` of output block `t` of array 8 is entry `(5000 t + p, q)` of the array. -/
theorem emb8 (t : Fin cfg0.N) (p : Fin 5000) (q : Fin 64) :
    ((cfg0.win 8).blk t).view.emb (ix2 p q) = ix2 (arow t p) q := by
  obtain ⟨-, -, -, -, -, -, -, -, -, -, -, -, e12, e13, e14, e15, e16, e17⟩ := idx_facts t
  funext a; apply Fin.ext
  match a with
  | ⟨0, _⟩ => show win0_8.index t (0 : Fin 2) * 5000 + 1 * p.val = t.val * 5000 + p.val; omega
  | ⟨1, _⟩ => show win0_8.index t (1 : Fin 2) * 64 + 1 * q.val = q.val; omega

/-- What point `t` writes back to array 6 is block `t` of the product of the node features with the weight. -/
theorem flushed6_eq (c : Dev nD) (t : Fin cfg0.N) :
    (dat0 V c).flushed 6 t = ((cfg0.win 6).blk t).view.read (Elt Ideal) (proj (V c main_arg1) (V c main_arg5)) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  show k0_pay2 (iblk0 V c 0 t) (iblk0 V c 2 t) (ix2 p q)
    = proj (V c main_arg1) (V c main_arg5) (((cfg0.win 6).blk t).view.emb (ix2 p q))
  refine (pay2_at (iblk0 V c 0 t) (iblk0 V c 2 t) p q).trans ?_
  rw [emb6 t p q]
  show _ = mm (V c main_arg1) (V c main_arg5) (arow t p) q
  refine Finset.sum_congr rfl fun k _ => ?_
  rw [blkX V c t p k, blkW2 V c t k q]

/-- What point `t` writes back to array 7 is block `t` of the product of the node features with the weight. -/
theorem flushed7_eq (c : Dev nD) (t : Fin cfg0.N) :
    (dat0 V c).flushed 7 t = ((cfg0.win 7).blk t).view.read (Elt Ideal) (proj (V c main_arg1) (V c main_arg9)) := by
  show (cfg0.win 7).cut (grid0.coords t) ((dat0 V c).after 7 t) = _
  rw [after0_7]
  unfold out0_7
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  show k0_pay3 (iblk0 V c 0 t) (iblk0 V c 3 t) (ix2 p q)
    = proj (V c main_arg1) (V c main_arg9) (((cfg0.win 7).blk t).view.emb (ix2 p q))
  refine (pay3_at (iblk0 V c 0 t) (iblk0 V c 3 t) p q).trans ?_
  rw [emb7 t p q]
  show _ = mm (V c main_arg1) (V c main_arg9) (arow t p) q
  refine Finset.sum_congr rfl fun k _ => ?_
  rw [blkX V c t p k, blkW3 V c t k q]

/-- What point `t` writes back to array 8 is block `t` of the skip features' product with one weight plus the node
    features' product with the other. -/
theorem flushed8_eq (c : Dev nD) (t : Fin cfg0.N) :
    (dat0 V c).flushed 8 t = ((cfg0.win 8).blk t).view.read (Elt Ideal) (proj2 (V c main_arg0) (V c main_arg1) (V c main_v3) (V c main_v4)) := by
  show (cfg0.win 8).cut (grid0.coords t) ((dat0 V c).after 8 t) = _
  rw [after0_8]
  unfold out0_8
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  show k0_pay4 (iblk0 V c 0 t) (iblk0 V c 1 t) (iblk0 V c 4 t) (iblk0 V c 5 t) (ix2 p q)
    = proj2 (V c main_arg0) (V c main_arg1) (V c main_v3) (V c main_v4) (((cfg0.win 8).blk t).view.emb (ix2 p q))
  refine (pay4_at (iblk0 V c 0 t) (iblk0 V c 1 t) (iblk0 V c 4 t) (iblk0 V c 5 t) p q).trans ?_
  rw [emb8 t p q]
  show _ = mm (V c main_arg0) (V c main_v3) (arow t p) q + mm (V c main_arg1) (V c main_v4) (arow t p) q
  refine congrArg₂ (· + ·) (Finset.sum_congr rfl fun k _ => ?_) (Finset.sum_congr rfl fun k _ => ?_)
  · rw [blkS V c t p k, blkW4 V c t k q]
  · rw [blkX V c t p k, blkW5 V c t k q]

/-- An index of array 6 lies in point `t`'s block iff each coordinate lies in the block's range. -/
theorem mem_blk6 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v7_0).slice (win0_6.rect t)).set ↔ _
  rw [View.set_slice_whole, Rect.mem_set_unit]
  exact Iff.rfl

/-- Every row `r` of array 6 lies in the block of point `r / 5000`. -/
theorem cover6 (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have ht : (i 0).val / 5000 < cfg0.N := by show (i 0).val / 5000 < 10; omega
  obtain ⟨-, -, -, -, -, -, -, -, -, -, -, -, e12, e13, e14, e15, e16, e17⟩ := idx_facts ⟨(i 0).val / 5000, ht⟩
  refine ⟨⟨(i 0).val / 5000, ht⟩, flush0_6 _, ?_⟩
  rw [mem_blk6]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e12]
    show (i 0).val / 5000 * 5000 ≤ (i 0).val ∧ (i 0).val < (i 0).val / 5000 * 5000 + 5000
    omega
  | ⟨1, _⟩ =>
    show win0_6.index ⟨(i 0).val / 5000, ht⟩ (1 : Fin 2) * 64 ≤ (i 1).val ∧ (i 1).val < win0_6.index ⟨(i 0).val / 5000, ht⟩ (1 : Fin 2) * 64 + 64
    omega

/-- An index of array 7 lies in point `t`'s block iff each coordinate lies in the block's range. -/
theorem mem_blk7 (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v7_1).slice (win0_7.rect t)).set ↔ _
  rw [View.set_slice_whole, Rect.mem_set_unit]
  exact Iff.rfl

/-- Every row `r` of array 7 lies in the block of point `r / 5000`. -/
theorem cover7 (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  have ht : (i 0).val / 5000 < cfg0.N := by show (i 0).val / 5000 < 10; omega
  obtain ⟨-, -, -, -, -, -, -, -, -, -, -, -, e12, e13, e14, e15, e16, e17⟩ := idx_facts ⟨(i 0).val / 5000, ht⟩
  refine ⟨⟨(i 0).val / 5000, ht⟩, flush0_7 _, ?_⟩
  rw [mem_blk7]
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    rw [e14]
    show (i 0).val / 5000 * 5000 ≤ (i 0).val ∧ (i 0).val < (i 0).val / 5000 * 5000 + 5000
    omega
  | ⟨1, _⟩ =>
    show win0_7.index ⟨(i 0).val / 5000, ht⟩ (1 : Fin 2) * 64 ≤ (i 1).val ∧ (i 1).val < win0_7.index ⟨(i 0).val / 5000, ht⟩ (1 : Fin 2) * 64 + 64
    omega

/-- An index of array 8 lies in point `t`'s block iff each coordinate lies in the block's range. -/
theorem mem_blk8 (t : Fin cfg0.N) (i : S50000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v7_2).slice (win0_8.rect t)).set ↔ _
  rw [View.set_slice_whole, Rect.mem_set_unit]
  exact Iff.rfl

/-- Every row `r` of array 8 lies in the block of point `r / 5000`. -/
theorem cover8 (i : S50000x64.Idx) : ∃ t : Fin cfg0.N, (cfg0.win 8).flush t = true ∧ i ∈ ((cfg0.win 8).blk t).view.set := by
  have hi0 : (i 0).val < 50000 := (i 0).isLt
  have hi1 : (i 1).val < 64 := (i 1).isLt
  have ht : (i 0).val / 5000 < cfg0.N := by show (i 0).val / 5000 < 10; omega
  obtain ⟨-, -, -, -, -, -, -, -, -, -, -, -, e12, e13, e14, e15, e16, e17⟩ := idx_facts ⟨(i 0).val / 5000, ht⟩
  refine ⟨⟨(i 0).val / 5000, ht⟩, flush0_8 _, ?_⟩
  rw [mem_blk8]
  intro a
  match a with
  | ⟨0, _⟩ =>
    show win0_8.index ⟨(i 0).val / 5000, ht⟩ (0 : Fin 2) * 5000 ≤ (i 0).val ∧ (i 0).val < win0_8.index ⟨(i 0).val / 5000, ht⟩ (0 : Fin 2) * 5000 + 5000
    rw [e16]
    show (i 0).val / 5000 * 5000 ≤ (i 0).val ∧ (i 0).val < (i 0).val / 5000 * 5000 + 5000
    omega
  | ⟨1, _⟩ =>
    show win0_8.index ⟨(i 0).val / 5000, ht⟩ (1 : Fin 2) * 64 ≤ (i 1).val ∧ (i 1).val < win0_8.index ⟨(i 0).val / 5000, ht⟩ (1 : Fin 2) * 64 + 64
    omega

/-- After the region its first output array is `X · W` (`X` the node features, `W` the first weight). -/
theorem array6_eq (c : Dev nD) :
    (dat0 V c).arrAt 6 cfg0.N = proj (V c main_arg1) (V c main_arg5) :=
  (dat0 V c).arrAt_eq_of_cover 6 _ (fun t _ => flushed6_eq V c t) cover6

/-- After the region its second output array is `X · W'`. -/
theorem array7_eq (c : Dev nD) :
    (dat0 V c).arrAt 7 cfg0.N = proj (V c main_arg1) (V c main_arg9) :=
  (dat0 V c).arrAt_eq_of_cover 7 _ (fun t _ => flushed7_eq V c t) cover7

/-- After the region its third output array is `S · W₀ + X · W₁` (`S` the skip features). -/
theorem array8_eq (c : Dev nD) :
    (dat0 V c).arrAt 8 cfg0.N = proj2 (V c main_arg0) (V c main_arg1) (V c main_v3) (V c main_v4) :=
  (dat0 V c).arrAt_eq_of_cover 8 _ (fun t _ => flushed8_eq V c t) cover8

end Cert.Gnn.Region0

end
-- ==== Proof.Region1.lean ====
import proofs.«431017_j90924457656405_3_alg».proof.Proof.Gen.KernelIdeal.Frame
import proofs.«431017_j90924457656405_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gnn.Region1

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

/-! ## The matrix product of an 8000-row block, read at an index -/

theorem lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block's product with a 64 × 64 matrix into the zero accumulator, at entry `(p, q)`: the sum over the 64 shared
    coordinates. -/
theorem matmul_at (a : FVec Ideal S8000x64 .bf16) (b : FVec Ideal S64x64 .bf16) (p : Fin 8000) (q : Fin 64) :
    matmul dot_S8000x64_S64x64_S8000x64_1_0_0_1_n_n none a b (constant S8000x64 .f32 0x00000000#32) (ix2 p q)
      = ∑ k : Fin 64, a (ix2 p k) * b (ix2 k q) := by
  refine (Ideal.matmul_constant_zero_apply dot_S8000x64_S64x64_S8000x64_1_0_0_1_n_n none a b (ix2 p q)).trans ?_
  rw [← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact lhs_0 _ _
    | ⟨1, _⟩ => exact (lhs_1 _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The body's stored value at entry `(p, q)` of the block: the edge block's product with the weight plus the
    gathered block's entry. -/
theorem pay_at (x0 : Vec Ideal S8000x64 .f32) (x2 : Vec Ideal S64x64 .f32) (x5 : Vec Ideal S8000x64 .f32) (p : Fin 8000) (q : Fin 64) :
    k1_pay1 x0 x2 x5 (ix2 p q) = (∑ k : Fin 64, x0 (ix2 p k) * x2 (ix2 k q)) + x5 (ix2 p q) := by
  unfold k1_pay1
  refine (congrArg (· + _) (matmul_at _ _ p q)).trans ?_
  rw [shapeCast_self]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 100 grid points: the edge block, the gathered block and the output block of point
    `t` are all block `t` along the rows; the weight is one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of block `t` is row `8000 t + p` of the array. -/
abbrev arow (t : Fin cfg1.N) (p : Fin 8000) : Fin 800000 := ⟨t.val * 8000 + p.val, by
  have h : t.val < 100 := t.isLt
  have := p.isLt; omega⟩

/-- What point `t` writes back is block `t` of the message array `E · W + g` of the arrays the region finds. -/
theorem flushed_eq (c : Dev nD) (t : Fin cfg1.N) :
    (dat1 V c).flushed 3 t = ((cfg1.win 3).blk t).view.read (Elt Ideal) (msg (V c main_arg2) (V c main_v8) (V c main_arg7)) := by
  show (cfg1.win 3).cut (grid1.coords t) ((dat1 V c).after 3 t) = _
  rw [after1_3]
  unfold out1_3
  rw [View.canon_unit_zero hz]
  simp only [View.ld_unit_zero (S := S8000x64) hz, View.ld_unit_zero (S := S64x64) hz]
  obtain ⟨e0, e1, e2, e3, e4, e5, e6, e7⟩ := idx_facts t
  funext j
  obtain ⟨p, q, rfl⟩ : ∃ (p : Fin 8000) (q : Fin 64), j = ix2 p q := ⟨j 0, j 1, eq_ix2 j⟩
  show k1_pay1 (iblk1 V c 0 t) (iblk1 V c 2 t) (iblk1 V c 1 t) (ix2 p q)
    = msg (V c main_arg2) (V c main_v8) (V c main_arg7) (((cfg1.win 3).blk t).view.emb (ix2 p q))
  refine (pay_at (iblk1 V c 0 t) (iblk1 V c 2 t) (iblk1 V c 1 t) p q).trans ?_
  have h3 : ((cfg1.win 3).blk t).view.emb (ix2 p q) = ix2 (arow t p) q := by
    funext a; apply Fin.ext
    match a with
    | ⟨0, _⟩ => show win1_3.index t (0 : Fin 2) * 8000 + 1 * p.val = t.val * 8000 + p.val; omega
    | ⟨1, _⟩ => show win1_3.index t (1 : Fin 2) * 64 + 1 * q.val = q.val; omega
  rw [h3]
  have h0 : ∀ k : Fin 64, iblk1 V c 0 t (ix2 p k) = V c main_arg2 (ix2 (arow t p) k) := fun k => by
    show V c main_arg2 (((cfg1.win 0).blk t).view.emb (ix2 p k)) = _
    refine congrArg _ (funext fun a => Fin.ext ?_)
    match a with
    | ⟨0, _⟩ => show win1_0.index t (0 : Fin 2) * 8000 + 1 * p.val = t.val * 8000 + p.val; omega
    | ⟨1, _⟩ => show win1_0.index t (1 : Fin 2) * 64 + 1 * k.val = k.val; omega
  have h2 : ∀ k : Fin 64, iblk1 V c 2 t (ix2 k q) = V c main_arg7 (ix2 k q) := fun k => by
    show V c main_arg7 (((cfg1.win 2).blk t).view.emb (ix2 k q)) = _
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega
  have h1 : iblk1 V c 1 t (ix2 p q) = V c main_v8 (ix2 (arow t p) q) := by
    show V c main_v8 (((cfg1.win 1).blk t).view.emb (ix2 p q)) = _
    refine congrArg _ (funext fun a => Fin.ext ?_)
    match a with
    | ⟨0, _⟩ => show win1_1.index t (0 : Fin 2) * 8000 + 1 * p.val = t.val * 8000 + p.val; omega
    | ⟨1, _⟩ => show win1_1.index t (1 : Fin 2) * 64 + 1 * q.val = q.val; omega
  rw [h1]
  refine congrArg (· + _) (Finset.sum_congr rfl fun k _ => ?_)
  rw [h0 k, h2 k]

/-- An index of the message array lies in point `t`'s block iff each coordinate lies in the block's range. -/
theorem mem_blk (t : Fin cfg1.N) (i : S800000x64.Idx) :
    i ∈ ((cfg1.win 3).blk t).view.set ↔ ∀ a : Fin 2, win1_3.index t a * S8000x64.size a ≤ (i a).val ∧ (i a).val < win1_3.index t a * S8000x64.size a + S8000x64.size a := by
  show i ∈ ((View.whole main_v9).slice (win1_3.rect t)).set ↔ _
  rw [View.set_slice_whole, Rect.mem_set_unit]
  exact Iff.rfl

/-- Every row `r` of the message array lies in the block of point `r / 8000`. -/
theorem cover (i : S800000x64.Idx) : ∃ t : Fin cfg1.N, (cfg1.win 3).flush t = true ∧ i ∈ ((cfg1.win 3).blk t).view.set := by
  have hi0 : (i 0).val < 800000 := (i 0).isLt
  have hi1 : (i 1).val < 64 := (i 1).isLt
  have ht : (i 0).val / 8000 < cfg1.N := by show (i 0).val / 8000 < 100; omega
  obtain ⟨-, -, -, -, -, -, e6, e7⟩ := idx_facts ⟨(i 0).val / 8000, ht⟩
  refine ⟨⟨(i 0).val / 8000, ht⟩, flush1_3 _, ?_⟩
  rw [mem_blk]
  intro a
  match a with
  | ⟨0, _⟩ =>
    show win1_3.index ⟨(i 0).val / 8000, ht⟩ (0 : Fin 2) * 8000 ≤ (i 0).val ∧ (i 0).val < win1_3.index ⟨(i 0).val / 8000, ht⟩ (0 : Fin 2) * 8000 + 8000
    rw [e6]
    show (i 0).val / 8000 * 8000 ≤ (i 0).val ∧ (i 0).val < (i 0).val / 8000 * 8000 + 8000
    omega
  | ⟨1, _⟩ =>
    show win1_3.index ⟨(i 0).val / 8000, ht⟩ (1 : Fin 2) * 64 ≤ (i 1).val ∧ (i 1).val < win1_3.index ⟨(i 0).val / 8000, ht⟩ (1 : Fin 2) * 64 + 64
    omega

/-- After the region the message array is `E · W + g` of the arrays the region found. -/
theorem array_eq (c : Dev nD) :
    (dat1 V c).arrAt 3 cfg1.N = msg (V c main_arg2) (V c main_v8) (V c main_arg7) :=
  (dat1 V c).arrAt_eq_of_cover 3 _ (fun t _ => flushed_eq V c t) cover

end Cert.Gnn.Region1

end
-- ==== Proof.KThreadA.lean ====
/-
  The buffers' contents at the boundaries of the kernel program's first two dense regions and the host stretches around
  them, each as a function of the argument arrays: up to the mean of the messages and the reshaped node bias.
-/
import proofs.«431017_j90924457656405_3_alg».proof.Proof.Gen.KernelIdeal.Frame
import proofs.«431017_j90924457656405_3_alg».proof.Proof.Spec
import proofs.«431017_j90924457656405_3_alg».proof.Proof.KHost
import proofs.«431017_j90924457656405_3_alg».proof.Proof.KVals
import proofs.«431017_j90924457656405_3_alg».proof.Proof.KTake
import proofs.«431017_j90924457656405_3_alg».proof.Proof.Region0
import proofs.«431017_j90924457656405_3_alg».proof.Proof.Region1
import Idealize.ShloMosaic.Lib.StableHlo.Run
import Idealize.ShloMosaic.Lib.Pipeline.Value

set_option maxRecDepth 16384

noncomputable section

namespace Cert.Gnn.Thread

open Cert.KernelIdeal Cert.KernelIdeal.Gen Cert.Gnn
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## Entering region 0: the weight bands are cut, nothing else is written -/

theorem W1_arg0 : W1 m ρ c (Proc.devRef .tc main_arg0) = A m c main_arg0 := by host_read
theorem W1_arg1 : W1 m ρ c (Proc.devRef .tc main_arg1) = A m c main_arg1 := by host_read
theorem W1_arg2 : W1 m ρ c (Proc.devRef .tc main_arg2) = A m c main_arg2 := by host_read
theorem W1_arg3 : W1 m ρ c (Proc.devRef .tc main_arg3) = A m c main_arg3 := by host_read
theorem W1_arg4 : W1 m ρ c (Proc.devRef .tc main_arg4) = A m c main_arg4 := by host_read
theorem W1_arg5 : W1 m ρ c (Proc.devRef .tc main_arg5) = A m c main_arg5 := by host_read
theorem W1_arg7 : W1 m ρ c (Proc.devRef .tc main_arg7) = A m c main_arg7 := by host_read
theorem W1_arg8 : W1 m ρ c (Proc.devRef .tc main_arg8) = A m c main_arg8 := by host_read
theorem W1_arg9 : W1 m ρ c (Proc.devRef .tc main_arg9) = A m c main_arg9 := by host_read
theorem W1_arg12 : W1 m ρ c (Proc.devRef .tc main_arg12) = A m c main_arg12 := by host_read
theorem W1_v0 : W1 m ρ c (Proc.devRef .tc main_v0) = wn0 m c := by host_read
theorem W1_v1 : W1 m ρ c (Proc.devRef .tc main_v1) = wn1 m c := by host_read
theorem W1_v2 : W1 m ρ c (Proc.devRef .tc main_v2) = wn2 m c := by host_read
theorem W1_v3 : W1 m ρ c (Proc.devRef .tc main_v3) = wv0 m c := by host_read
theorem W1_v4 : W1 m ρ c (Proc.devRef .tc main_v4) = wv1 m c := by host_read
theorem W1_v5 : W1 m ρ c (Proc.devRef .tc main_v5) = we0 m c := by host_read
theorem W1_v6 : W1 m ρ c (Proc.devRef .tc main_v6) = we1 m c := by host_read

/-! ## Leaving region 0: the three projections are written; its inputs and every other buffer are as entered -/

theorem W2_v7_0 : W2 m ρ c (Proc.devRef .tc main_v7_0) = h1 m c :=
  (W2_arr m ρ c 6).trans ((Region0.array6_eq (V1 m ρ) c).trans (by
    show proj (W1 m ρ c (Proc.devRef .tc main_arg1)) (W1 m ρ c (Proc.devRef .tc main_arg5)) = _
    rw [W1_arg1, W1_arg5]))
theorem W2_v7_1 : W2 m ρ c (Proc.devRef .tc main_v7_1) = hu m c :=
  (W2_arr m ρ c 7).trans ((Region0.array7_eq (V1 m ρ) c).trans (by
    show proj (W1 m ρ c (Proc.devRef .tc main_arg1)) (W1 m ρ c (Proc.devRef .tc main_arg9)) = _
    rw [W1_arg1, W1_arg9]))
theorem W2_v7_2 : W2 m ρ c (Proc.devRef .tc main_v7_2) = hv m c :=
  (W2_arr m ρ c 8).trans ((Region0.array8_eq (V1 m ρ) c).trans (by
    show proj2 (W1 m ρ c (Proc.devRef .tc main_arg0)) (W1 m ρ c (Proc.devRef .tc main_arg1))
      (W1 m ρ c (Proc.devRef .tc main_v3)) (W1 m ρ c (Proc.devRef .tc main_v4)) = _
    rw [W1_arg0, W1_arg1, W1_v3, W1_v4]))
theorem W2_arg0 : W2 m ρ c (Proc.devRef .tc main_arg0) = A m c main_arg0 :=
  (W2_arr m ρ c 1).trans (((dat0 (V1 m ρ) c).arrAt_in 1 rfl _).trans ((A_eq0 (V1 m ρ) c 1).trans (W1_arg0 m ρ c)))
theorem W2_arg1 : W2 m ρ c (Proc.devRef .tc main_arg1) = A m c main_arg1 :=
  (W2_arr m ρ c 0).trans (((dat0 (V1 m ρ) c).arrAt_in 0 rfl _).trans ((A_eq0 (V1 m ρ) c 0).trans (W1_arg1 m ρ c)))
theorem W2_arg2 : W2 m ρ c (Proc.devRef .tc main_arg2) = A m c main_arg2 := (W2_of_ne m ρ c main_arg2 (by decide)).trans (W1_arg2 m ρ c)
theorem W2_arg3 : W2 m ρ c (Proc.devRef .tc main_arg3) = A m c main_arg3 := (W2_of_ne m ρ c main_arg3 (by decide)).trans (W1_arg3 m ρ c)
theorem W2_arg4 : W2 m ρ c (Proc.devRef .tc main_arg4) = A m c main_arg4 := (W2_of_ne m ρ c main_arg4 (by decide)).trans (W1_arg4 m ρ c)
theorem W2_arg7 : W2 m ρ c (Proc.devRef .tc main_arg7) = A m c main_arg7 := (W2_of_ne m ρ c main_arg7 (by decide)).trans (W1_arg7 m ρ c)
theorem W2_arg8 : W2 m ρ c (Proc.devRef .tc main_arg8) = A m c main_arg8 := (W2_of_ne m ρ c main_arg8 (by decide)).trans (W1_arg8 m ρ c)
theorem W2_arg12 : W2 m ρ c (Proc.devRef .tc main_arg12) = A m c main_arg12 := (W2_of_ne m ρ c main_arg12 (by decide)).trans (W1_arg12 m ρ c)
theorem W2_v0 : W2 m ρ c (Proc.devRef .tc main_v0) = wn0 m c := (W2_of_ne m ρ c main_v0 (by decide)).trans (W1_v0 m ρ c)
theorem W2_v1 : W2 m ρ c (Proc.devRef .tc main_v1) = wn1 m c := (W2_of_ne m ρ c main_v1 (by decide)).trans (W1_v1 m ρ c)
theorem W2_v2 : W2 m ρ c (Proc.devRef .tc main_v2) = wn2 m c := (W2_of_ne m ρ c main_v2 (by decide)).trans (W1_v2 m ρ c)
theorem W2_v5 : W2 m ρ c (Proc.devRef .tc main_v5) = we0 m c := (W2_of_ne m ρ c main_v5 (by decide)).trans (W1_v5 m ρ c)
theorem W2_v6 : W2 m ρ c (Proc.devRef .tc main_v6) = we1 m c := (W2_of_ne m ρ c main_v6 (by decide)).trans (W1_v6 m ρ c)

/-! ## Entering region 1: the source projection is gathered per edge -/

theorem W3_v8 : W3 m ρ c (Proc.devRef .tc main_v8) = h1g m c :=
  (take0_read (W2 m ρ c)).trans (congrArg₂ (takeRows (F := Ideal)) (W2_v7_0 m ρ c) (W2_arg3 m ρ c))
theorem W3_arg0 : W3 m ρ c (Proc.devRef .tc main_arg0) = A m c main_arg0 := by host_read; exact W2_arg0 m ρ c
theorem W3_arg1 : W3 m ρ c (Proc.devRef .tc main_arg1) = A m c main_arg1 := by host_read; exact W2_arg1 m ρ c
theorem W3_arg2 : W3 m ρ c (Proc.devRef .tc main_arg2) = A m c main_arg2 := by host_read; exact W2_arg2 m ρ c
theorem W3_arg3 : W3 m ρ c (Proc.devRef .tc main_arg3) = A m c main_arg3 := by host_read; exact W2_arg3 m ρ c
theorem W3_arg4 : W3 m ρ c (Proc.devRef .tc main_arg4) = A m c main_arg4 := by host_read; exact W2_arg4 m ρ c
theorem W3_arg7 : W3 m ρ c (Proc.devRef .tc main_arg7) = A m c main_arg7 := by host_read; exact W2_arg7 m ρ c
theorem W3_arg8 : W3 m ρ c (Proc.devRef .tc main_arg8) = A m c main_arg8 := by host_read; exact W2_arg8 m ρ c
theorem W3_arg12 : W3 m ρ c (Proc.devRef .tc main_arg12) = A m c main_arg12 := by host_read; exact W2_arg12 m ρ c
theorem W3_v0 : W3 m ρ c (Proc.devRef .tc main_v0) = wn0 m c := by host_read; exact W2_v0 m ρ c
theorem W3_v1 : W3 m ρ c (Proc.devRef .tc main_v1) = wn1 m c := by host_read; exact W2_v1 m ρ c
theorem W3_v2 : W3 m ρ c (Proc.devRef .tc main_v2) = wn2 m c := by host_read; exact W2_v2 m ρ c
theorem W3_v5 : W3 m ρ c (Proc.devRef .tc main_v5) = we0 m c := by host_read; exact W2_v5 m ρ c
theorem W3_v6 : W3 m ρ c (Proc.devRef .tc main_v6) = we1 m c := by host_read; exact W2_v6 m ρ c
theorem W3_v7_1 : W3 m ρ c (Proc.devRef .tc main_v7_1) = hu m c := by host_read; exact W2_v7_1 m ρ c
theorem W3_v7_2 : W3 m ρ c (Proc.devRef .tc main_v7_2) = hv m c := by host_read; exact W2_v7_2 m ρ c

/-! ## Leaving region 1: the messages are written -/

theorem W4_v9 : W4 m ρ c (Proc.devRef .tc main_v9) = msgs m c :=
  (W4_arr m ρ c 3).trans ((Region1.array_eq (V3 m ρ) c).trans (by
    show msg (W3 m ρ c (Proc.devRef .tc main_arg2)) (W3 m ρ c (Proc.devRef .tc main_v8)) (W3 m ρ c (Proc.devRef .tc main_arg7)) = _
    rw [W3_arg2, W3_v8, W3_arg7]))
theorem W4_arg2 : W4 m ρ c (Proc.devRef .tc main_arg2) = A m c main_arg2 :=
  (W4_arr m ρ c 0).trans (((dat1 (V3 m ρ) c).arrAt_in 0 rfl _).trans ((A_eq1 (V3 m ρ) c 0).trans (W3_arg2 m ρ c)))
theorem W4_arg0 : W4 m ρ c (Proc.devRef .tc main_arg0) = A m c main_arg0 := (W4_of_ne m ρ c main_arg0 (by decide)).trans (W3_arg0 m ρ c)
theorem W4_arg1 : W4 m ρ c (Proc.devRef .tc main_arg1) = A m c main_arg1 := (W4_of_ne m ρ c main_arg1 (by decide)).trans (W3_arg1 m ρ c)
theorem W4_arg3 : W4 m ρ c (Proc.devRef .tc main_arg3) = A m c main_arg3 := (W4_of_ne m ρ c main_arg3 (by decide)).trans (W3_arg3 m ρ c)
theorem W4_arg4 : W4 m ρ c (Proc.devRef .tc main_arg4) = A m c main_arg4 := (W4_of_ne m ρ c main_arg4 (by decide)).trans (W3_arg4 m ρ c)
theorem W4_arg8 : W4 m ρ c (Proc.devRef .tc main_arg8) = A m c main_arg8 := (W4_of_ne m ρ c main_arg8 (by decide)).trans (W3_arg8 m ρ c)
theorem W4_arg12 : W4 m ρ c (Proc.devRef .tc main_arg12) = A m c main_arg12 := (W4_of_ne m ρ c main_arg12 (by decide)).trans (W3_arg12 m ρ c)
theorem W4_v0 : W4 m ρ c (Proc.devRef .tc main_v0) = wn0 m c := (W4_of_ne m ρ c main_v0 (by decide)).trans (W3_v0 m ρ c)
theorem W4_v1 : W4 m ρ c (Proc.devRef .tc main_v1) = wn1 m c := (W4_of_ne m ρ c main_v1 (by decide)).trans (W3_v1 m ρ c)
theorem W4_v2 : W4 m ρ c (Proc.devRef .tc main_v2) = wn2 m c := (W4_of_ne m ρ c main_v2 (by decide)).trans (W3_v2 m ρ c)
theorem W4_v5 : W4 m ρ c (Proc.devRef .tc main_v5) = we0 m c := (W4_of_ne m ρ c main_v5 (by decide)).trans (W3_v5 m ρ c)
theorem W4_v6 : W4 m ρ c (Proc.devRef .tc main_v6) = we1 m c := (W4_of_ne m ρ c main_v6 (by decide)).trans (W3_v6 m ρ c)
theorem W4_v7_1 : W4 m ρ c (Proc.devRef .tc main_v7_1) = hu m c := (W4_of_ne m ρ c main_v7_1 (by decide)).trans (W3_v7_1 m ρ c)
theorem W4_v7_2 : W4 m ρ c (Proc.devRef .tc main_v7_2) = hv m c := (W4_of_ne m ρ c main_v7_2 (by decide)).trans (W3_v7_2 m ρ c)

/-! ## Entering region 2: the messages are averaged per destination node, the node bias becomes a row -/

theorem W5_v21 : W5 m ρ c (Proc.devRef .tc main_v21) = hn m c := by
  host_read_all
  simp only [W4_v9 m ρ c, W4_arg4 m ρ c]
  rfl
theorem W5_v22 : W5 m ρ c (Proc.devRef .tc main_v22) = bn m c := by
  host_read
  rw [W4_arg8]
  rfl
theorem W5_arg0 : W5 m ρ c (Proc.devRef .tc main_arg0) = A m c main_arg0 := by host_read; exact W4_arg0 m ρ c
theorem W5_arg1 : W5 m ρ c (Proc.devRef .tc main_arg1) = A m c main_arg1 := by host_read; exact W4_arg1 m ρ c
theorem W5_arg2 : W5 m ρ c (Proc.devRef .tc main_arg2) = A m c main_arg2 := by host_read; exact W4_arg2 m ρ c
theorem W5_arg3 : W5 m ρ c (Proc.devRef .tc main_arg3) = A m c main_arg3 := by host_read; exact W4_arg3 m ρ c
theorem W5_arg4 : W5 m ρ c (Proc.devRef .tc main_arg4) = A m c main_arg4 := by host_read; exact W4_arg4 m ρ c
theorem W5_arg12 : W5 m ρ c (Proc.devRef .tc main_arg12) = A m c main_arg12 := by host_read; exact W4_arg12 m ρ c
theorem W5_v0 : W5 m ρ c (Proc.devRef .tc main_v0) = wn0 m c := by host_read; exact W4_v0 m ρ c
theorem W5_v1 : W5 m ρ c (Proc.devRef .tc main_v1) = wn1 m c := by host_read; exact W4_v1 m ρ c
theorem W5_v2 : W5 m ρ c (Proc.devRef .tc main_v2) = wn2 m c := by host_read; exact W4_v2 m ρ c
theorem W5_v5 : W5 m ρ c (Proc.devRef .tc main_v5) = we0 m c := by host_read; exact W4_v5 m ρ c
theorem W5_v6 : W5 m ρ c (Proc.devRef .tc main_v6) = we1 m c := by host_read; exact W4_v6 m ρ c
theorem W5_v7_1 : W5 m ρ c (Proc.devRef .tc main_v7_1) = hu m c := by host_read; exact W4_v7_1 m ρ c
theorem W5_v7_2 : W5 m ρ c (Proc.devRef .tc main_v7_2) = hv m c := by host_read; exact W4_v7_2 m ρ c

end Cert.Gnn.Thread

end
-- ==== Proof.KOut.lean ====
/-
  The kernel program's two results as functions of the thirteen argument arrays, composed of the dense regions'
  specifications and the host steps between them.
-/
import proofs.«431017_j90924457656405_3_alg».proof.Proof.KHost
import proofs.«431017_j90924457656405_3_alg».proof.Proof.Spec

noncomputable section

namespace Cert.Gnn

open Cert.KernelIdeal Cert.KernelIdeal.Gen
open Idealize.ShloMosaic

/-- The node result: the update of `[S, X, mean of messages]` by the three 64-row bands of the 192-row weight. -/
def nodeResult (x0 x1 : FVec Ideal S50000x64 .f32) (x2 : FVec Ideal S800000x64 .f32) (x3 x4 : IVec S800000 32)
    (x5 : FVec Ideal S64x64 .f32) (x6 : FVec Ideal S192x64 .f32) (x7 : FVec Ideal S64x64 .f32) (x8 : FVec Ideal S64 .f32) :
    FVec Ideal S50000x64 .f32 :=
  nodeOut x0 x1 (meanAgg (F := Ideal) (msg x2 (takeRows (F := Ideal) (proj x1 x5) x3) x7) x4)
    (extractStridedSlice S64x64 ![0, 0] x6 slices_S192x64_S64x64_0_0)
    (extractStridedSlice S64x64 ![64, 0] x6 slices_S192x64_S64x64_64_0)
    (extractStridedSlice S64x64 ![128, 0] x6 slices_S192x64_S64x64_128_0)
    (shapeCast S1x64 x8 shapeCasts_S64_S1x64)

/-- The edge result: the update of `[E, X·Wₙᵤ at src + [S, X]·Wₙᵥ at dst]` by the two 64-row bands of the 128-row weight. -/
def edgeResult (x0 x1 : FVec Ideal S50000x64 .f32) (x2 : FVec Ideal S800000x64 .f32) (x3 x4 : IVec S800000 32)
    (x9 : FVec Ideal S64x64 .f32) (x10 x11 : FVec Ideal S128x64 .f32) (x12 : FVec Ideal S64 .f32) :
    FVec Ideal S800000x64 .f32 :=
  edgeOut x2 (takeRows (F := Ideal) (proj x1 x9) x3)
    (takeRows (F := Ideal) (proj2 x0 x1 (extractStridedSlice S64x64 ![0, 0] x10 slices_S128x64_S64x64_0_0)
      (extractStridedSlice S64x64 ![64, 0] x10 slices_S128x64_S64x64_64_0)) x4)
    (extractStridedSlice S64x64 ![0, 0] x11 slices_S128x64_S64x64_0_0)
    (extractStridedSlice S64x64 ![64, 0] x11 slices_S128x64_S64x64_64_0)
    (shapeCast S1x64 x12 shapeCasts_S64_S1x64)

end Cert.Gnn

end
-- ==== Proof.Region2.lean ====
import proofs.«431017_j90924457656405_3_alg».proof.Proof.Gen.KernelIdeal.Frame
import proofs.«431017_j90924457656405_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gnn.Region2

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

/-! # Region 2: the node update `((S · W₀ + X · W₁) + H · W₂) + b`, 5000 rows a block -/

/-! ## The matrix product of a 5000-row block, read at an index -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block's product with a 64 × 64 matrix into the zero accumulator, at entry `(p, q)`: the sum over the 64 shared
    coordinates. -/
theorem matmul_at (a : FVec Ideal S5000x64 .bf16) (b : FVec Ideal S64x64 .bf16) (p : Fin 5000) (q : Fin 64) :
    matmul dot_S5000x64_S64x64_S5000x64_1_0_0_1_n_n none a b (constant S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The single bias row, spread over the 5000 rows of a block, read at entry `(p, q)`: the row's entry `q`. -/
theorem bias_at (x6 : Vec Ideal S1x64 .f32) (p : Fin 5000) (q : Fin 64) :
    broadcastTo S5000x64 (shapeCast S1x64 x6 shapeCasts_S1x64_S1x64) broadcasts_S1x64_S5000x64 (ix2 p q)
      = x6 (ix2 (0 : Fin 1) q) := by
  rw [shapeCast_self]
  refine broadcastTo_apply x6 broadcasts_S1x64_S5000x64 (ix2 p q) (ix2 (0 : Fin 1) q) fun a => ?_
  match a with
  | ⟨0, _⟩ => rfl
  | ⟨1, _⟩ => rfl

/-- The body's stored value at entry `(p, q)` of the block: the three blocks' products with their weights, added
    left to right, plus the bias row's entry `q`. -/
theorem pay_at (x0 x1 x2 : Vec Ideal S5000x64 .f32) (x3 x4 x5 : Vec Ideal S64x64 .f32) (x6 : Vec Ideal S1x64 .f32)
    (p : Fin 5000) (q : Fin 64) :
    k2_pay1 x0 x1 x2 x3 x4 x5 x6 (ix2 p q)
      = (((∑ k : Fin 64, x0 (ix2 p k) * x3 (ix2 k q)) + (∑ k : Fin 64, x1 (ix2 p k) * x4 (ix2 k q)))
          + (∑ k : Fin 64, x2 (ix2 p k) * x5 (ix2 k q))) + x6 (ix2 (0 : Fin 1) q) := by
  unfold k2_pay1
  refine (congrArg₂ (· + ·) (congrArg₂ (· + ·) (congrArg₂ (· + ·) (matmul_at _ _ p q) (matmul_at _ _ p q))
    (matmul_at _ _ p q)) (bias_at x6 p q)).trans ?_
  simp only [shapeCast_self]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 10 grid points: the three node blocks and the output block of point `t` are all
    block `t` along the rows; each weight and the bias row is one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of block `t` is row `5000 t + p` of the array. -/
abbrev arow (t : Fin cfg2.N) (p : Fin 5000) : Fin 50000 := ⟨t.val * 5000 + p.val, by
  have h : t.val < 10 := t.isLt
  have := p.isLt; omega⟩

/-- What point `t` writes back is block `t` of the node update of the arrays the region finds. -/
theorem flushed_eq (c : Dev nD) (t : Fin cfg2.N) :
    (dat2 V c).flushed 7 t = ((cfg2.win 7).blk t).view.read (Elt Ideal)
      (nodeOut (V c main_arg0) (V c main_arg1) (V c main_v21) (V c main_v0) (V c main_v1) (V c main_v2) (V c main_v22)) := by
  show (cfg2.win 7).cut (grid2.coords t) ((dat2 V c).after 7 t) = _
  rw [after2_7]
  unfold out2_7
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51, e60, e61, e70, e71⟩ := idx_facts t
  funext j
  obtain ⟨p, q, rfl⟩ : ∃ (p : Fin 5000) (q : Fin 64), j = ix2 p q := ⟨j 0, j 1, eq_ix2 j⟩
  show k2_pay1 (iblk2 V c 0 t) (iblk2 V c 1 t) (iblk2 V c 2 t) (iblk2 V c 3 t) (iblk2 V c 4 t) (iblk2 V c 5 t) (iblk2 V c 6 t) (ix2 p q)
    = nodeOut (V c main_arg0) (V c main_arg1) (V c main_v21) (V c main_v0) (V c main_v1) (V c main_v2) (V c main_v22)
        (((cfg2.win 7).blk t).view.emb (ix2 p q))
  refine (pay_at (iblk2 V c 0 t) (iblk2 V c 1 t) (iblk2 V c 2 t) (iblk2 V c 3 t) (iblk2 V c 4 t) (iblk2 V c 5 t) (iblk2 V c 6 t) p q).trans ?_
  have h7 : ((cfg2.win 7).blk t).view.emb (ix2 p q) = ix2 (arow t p) q := by
    funext a; apply Fin.ext
    match a with
    | ⟨0, _⟩ => show win2_7.index t (0 : Fin 2) * 5000 + 1 * p.val = t.val * 5000 + p.val; omega
    | ⟨1, _⟩ => show win2_7.index t (1 : Fin 2) * 64 + 1 * q.val = q.val; omega
  rw [h7]
  have h0 : ∀ k : Fin 64, iblk2 V c 0 t (ix2 p k) = V c main_arg0 (ix2 (arow t p) k) := fun k => by
    show V c main_arg0 (((cfg2.win 0).blk t).view.emb (ix2 p k)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * k.val = k.val; omega
  have h1 : ∀ k : Fin 64, iblk2 V c 1 t (ix2 p k) = V c main_arg1 (ix2 (arow t p) k) := fun k => by
    show V c main_arg1 (((cfg2.win 1).blk t).view.emb (ix2 p k)) = _
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 64 + 1 * k.val = k.val; omega
  have h2 : ∀ k : Fin 64, iblk2 V c 2 t (ix2 p k) = V c main_v21 (ix2 (arow t p) k) := fun k => by
    show V c main_v21 (((cfg2.win 2).blk t).view.emb (ix2 p k)) = _
    refine congrArg _ (funext fun a => Fin.ext ?_)
    match a with
    | ⟨0, _⟩ => show win2_2.index t (0 : Fin 2) * 5000 + 1 * p.val = t.val * 5000 + p.val; omega
    | ⟨1, _⟩ => show win2_2.index t (1 : Fin 2) * 64 + 1 * k.val = k.val; omega
  have h3 : ∀ k : Fin 64, iblk2 V c 3 t (ix2 k q) = V c main_v0 (ix2 k q) := fun k => by
    show V c main_v0 (((cfg2.win 3).blk t).view.emb (ix2 k q)) = _
    refine congrArg _ (funext fun a => Fin.ext ?_)
    match a with
    | ⟨0, _⟩ => show win2_3.index t (0 : Fin 2) * 64 + 1 * k.val = k.val; omega
    | ⟨1, _⟩ => show win2_3.index t (1 : Fin 2) * 64 + 1 * q.val = q.val; omega
  have h4 : ∀ k : Fin 64, iblk2 V c 4 t (ix2 k q) = V c main_v1 (ix2 k q) := fun k => by
    show V c main_v1 (((cfg2.win 4).blk t).view.emb (ix2 k q)) = _
    refine congrArg _ (funext fun a => Fin.ext ?_)
    match a with
    | ⟨0, _⟩ => show win2_4.index t (0 : Fin 2) * 64 + 1 * k.val = k.val; omega
    | ⟨1, _⟩ => show win2_4.index t (1 : Fin 2) * 64 + 1 * q.val = q.val; omega
  have h5 : ∀ k : Fin 64, iblk2 V c 5 t (ix2 k q) = V c main_v2 (ix2 k q) := fun k => by
    show V c main_v2 (((cfg2.win 5).blk t).view.emb (ix2 k q)) = _
    refine congrArg _ (funext fun a => Fin.ext ?_)
    match a with
    | ⟨0, _⟩ => show win2_5.index t (0 : Fin 2) * 64 + 1 * k.val = k.val; omega
    | ⟨1, _⟩ => show win2_5.index t (1 : Fin 2) * 64 + 1 * q.val = q.val; omega
  have h6 : iblk2 V c 6 t (ix2 (0 : Fin 1) q) = V c main_v22 (ix2 (0 : Fin 1) q) := by
    show V c main_v22 (((cfg2.win 6).blk t).view.emb (ix2 (0 : Fin 1) q)) = _
    refine congrArg _ (funext fun a => Fin.ext ?_)
    match a with
    | ⟨0, _⟩ => show win2_6.index t (0 : Fin 2) * 1 + 1 * (0 : Fin 1).val = (0 : Fin 1).val; omega
    | ⟨1, _⟩ => show win2_6.index t (1 : Fin 2) * 64 + 1 * q.val = q.val; omega
  rw [h6]
  show _ = ((mm (V c main_arg0) (V c main_v0) (arow t p) q + mm (V c main_arg1) (V c main_v1) (arow t p) q)
      + mm (V c main_v21) (V c main_v2) (arow t p) q) + V c main_v22 (ix2 (0 : Fin 1) q)
  unfold mm
  refine congrArg (· + _) (congrArg₂ (· + ·) (congrArg₂ (· + ·) ?_ ?_) ?_)
  · exact Finset.sum_congr rfl fun k _ => by rw [h0 k, h3 k]
  · exact Finset.sum_congr rfl fun k _ => by rw [h1 k, h4 k]
  · exact Finset.sum_congr rfl fun k _ => by rw [h2 k, h5 k]

/-- An index of the output array lies in point `t`'s block iff each coordinate lies in the block's range. -/
theorem mem_blk (t : Fin cfg2.N) (i : S50000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v23).slice (win2_7.rect t)).set ↔ _
  rw [View.set_slice_whole, Rect.mem_set_unit]
  exact Iff.rfl

/-- Every row `r` of the output array lies in the block of point `r / 5000`. -/
theorem cover (i : S50000x64.Idx) : ∃ t : Fin cfg2.N, (cfg2.win 7).flush t = true ∧ i ∈ ((cfg2.win 7).blk t).view.set := by
  have hi0 : (i 0).val < 50000 := (i 0).isLt
  have hi1 : (i 1).val < 64 := (i 1).isLt
  have ht : (i 0).val / 5000 < cfg2.N := by show (i 0).val / 5000 < 10; omega
  obtain ⟨-, -, -, -, -, -, -, -, -, -, -, -, -, -, e70, e71⟩ := idx_facts ⟨(i 0).val / 5000, ht⟩
  refine ⟨⟨(i 0).val / 5000, ht⟩, flush2_7 _, ?_⟩
  rw [mem_blk]
  intro a
  match a with
  | ⟨0, _⟩ =>
    show win2_7.index ⟨(i 0).val / 5000, ht⟩ (0 : Fin 2) * 5000 ≤ (i 0).val ∧ (i 0).val < win2_7.index ⟨(i 0).val / 5000, ht⟩ (0 : Fin 2) * 5000 + 5000
    rw [e70]
    show (i 0).val / 5000 * 5000 ≤ (i 0).val ∧ (i 0).val < (i 0).val / 5000 * 5000 + 5000
    omega
  | ⟨1, _⟩ =>
    show win2_7.index ⟨(i 0).val / 5000, ht⟩ (1 : Fin 2) * 64 ≤ (i 1).val ∧ (i 1).val < win2_7.index ⟨(i 0).val / 5000, ht⟩ (1 : Fin 2) * 64 + 64
    omega

/-- After the region its output array is the node update of the arrays the region found. -/
theorem array_eq (c : Dev nD) :
    (dat2 V c).arrAt 7 cfg2.N
      = nodeOut (V c main_arg0) (V c main_arg1) (V c main_v21) (V c main_v0) (V c main_v1) (V c main_v2) (V c main_v22) :=
  (dat2 V c).arrAt_eq_of_cover 7 _ (fun t _ => flushed_eq V c t) cover

end Cert.Gnn.Region2

end
-- ==== Proof.Region3.lean ====
import proofs.«431017_j90924457656405_3_alg».proof.Proof.Gen.KernelIdeal.Frame
import proofs.«431017_j90924457656405_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gnn.Region3

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

/-! # Region 3: the edge update `(E · W₀ + (u + v) · W₁) + b`, 8000 rows a block -/

/-! ## The matrix product of an 8000-row block, read at an index -/

theorem lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block's product with a 64 × 64 matrix into the zero accumulator, at entry `(p, q)`: the sum over the 64 shared
    coordinates. -/
theorem matmul_at (a : FVec Ideal S8000x64 .bf16) (b : FVec Ideal S64x64 .bf16) (p : Fin 8000) (q : Fin 64) :
    matmul dot_S8000x64_S64x64_S8000x64_1_0_0_1_n_n none a b (constant S8000x64 .f32 0x00000000#32) (ix2 p q)
      = ∑ k : Fin 64, a (ix2 p k) * b (ix2 k q) := by
  refine (Ideal.matmul_constant_zero_apply dot_S8000x64_S64x64_S8000x64_1_0_0_1_n_n none a b (ix2 p q)).trans ?_
  rw [← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact lhs_0 _ _
    | ⟨1, _⟩ => exact (lhs_1 _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The single bias row spread over the block, read at entry `(p, q)`: the row's entry `q`. -/
theorem bias_at (x5 : Vec Ideal S1x64 .f32) (p : Fin 8000) (q : Fin 64) :
    broadcastTo S8000x64 (shapeCast S1x64 x5 shapeCasts_S1x64_S1x64) broadcasts_S1x64_S8000x64 (ix2 p q)
      = x5 (ix2 (0 : Fin 1) q) := by
  rw [shapeCast_self]
  refine broadcastTo_apply x5 broadcasts_S1x64_S8000x64 (ix2 p q) (ix2 (0 : Fin 1) q) (fun a => ?_)
  match a with
  | ⟨0, _⟩ => rfl
  | ⟨1, _⟩ => rfl

/-- The body's stored value at entry `(p, q)` of the block: the edge block's product with the first weight, plus the
    product of the entrywise sum of the two gathered blocks with the second weight, plus the bias row's entry. -/
theorem pay_at (x0 x1 x2 : Vec Ideal S8000x64 .f32) (x3 x4 : Vec Ideal S64x64 .f32) (x5 : Vec Ideal S1x64 .f32)
    (p : Fin 8000) (q : Fin 64) :
    k3_pay1 x0 x1 x2 x3 x4 x5 (ix2 p q)
      = ((∑ k : Fin 64, x0 (ix2 p k) * x3 (ix2 k q))
          + (∑ k : Fin 64, (x1 (ix2 p k) + x2 (ix2 p k)) * x4 (ix2 k q)))
        + x5 (ix2 (0 : Fin 1) q) := by
  unfold k3_pay1
  refine (congrArg (· + _) (congrArg₂ (· + ·) (matmul_at _ _ p q) (matmul_at _ _ p q))).trans ?_
  refine (congrArg (_ + ·) (bias_at x5 p q)).trans ?_
  simp only [shapeCast_self]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 100 grid points: the edge block, the two gathered blocks and the output block of
    point `t` are all block `t` along the rows. -/
theorem idx_rows : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_6.index t (0 : Fin 2) = t.val ∧ win3_6.index t (1 : Fin 2) = 0 :=
  (by decide +kernel : ∀ t : Fin grid3.N, _)

/-- Each weight and the bias row is one block at every grid point. -/
theorem idx_consts : ∀ t : Fin cfg3.N, win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Row `p` of block `t` is row `8000 t + p` of the array. -/
abbrev arow (t : Fin cfg3.N) (p : Fin 8000) : Fin 800000 := ⟨t.val * 8000 + p.val, by
  have h : t.val < 100 := t.isLt
  have := p.isLt; omega⟩

/-- Point `t`'s edge block at `(p, k)` is the edge array at row `8000 t + p`. -/
theorem in0_at (c : Dev nD) (t : Fin cfg3.N) (p : Fin 8000) (k : Fin 64) :
    iblk3 V c 0 t (ix2 p k) = V c main_arg2 (ix2 (arow t p) k) := by
  obtain ⟨e0, e1, e2, e3, e4, e5, e6, e7⟩ := idx_rows t
  show V c main_arg2 (((cfg3.win 0).blk t).view.emb (ix2 p k)) = _
  refine congrArg _ (funext fun a => Fin.ext ?_)
  match a with
  | ⟨0, _⟩ => show win3_0.index t (0 : Fin 2) * 8000 + 1 * p.val = t.val * 8000 + p.val; omega
  | ⟨1, _⟩ => show win3_0.index t (1 : Fin 2) * 64 + 1 * k.val = k.val; omega

/-- Point `t`'s first gathered block at `(p, k)` is the first gathered array at row `8000 t + p`. -/
theorem in1_at (c : Dev nD) (t : Fin cfg3.N) (p : Fin 8000) (k : Fin 64) :
    iblk3 V c 1 t (ix2 p k) = V c main_v24 (ix2 (arow t p) k) := by
  obtain ⟨e0, e1, e2, e3, e4, e5, e6, e7⟩ := idx_rows t
  show V c main_v24 (((cfg3.win 1).blk t).view.emb (ix2 p k)) = _
  refine congrArg _ (funext fun a => Fin.ext ?_)
  match a with
  | ⟨0, _⟩ => show win3_1.index t (0 : Fin 2) * 8000 + 1 * p.val = t.val * 8000 + p.val; omega
  | ⟨1, _⟩ => show win3_1.index t (1 : Fin 2) * 64 + 1 * k.val = k.val; omega

/-- Point `t`'s second gathered block at `(p, k)` is the second gathered array at row `8000 t + p`. -/
theorem in2_at (c : Dev nD) (t : Fin cfg3.N) (p : Fin 8000) (k : Fin 64) :
    iblk3 V c 2 t (ix2 p k) = V c main_v25 (ix2 (arow t p) k) := by
  obtain ⟨e0, e1, e2, e3, e4, e5, e6, e7⟩ := idx_rows t
  show V c main_v25 (((cfg3.win 2).blk t).view.emb (ix2 p k)) = _
  refine congrArg _ (funext fun a => Fin.ext ?_)
  match a with
  | ⟨0, _⟩ => show win3_2.index t (0 : Fin 2) * 8000 + 1 * p.val = t.val * 8000 + p.val; omega
  | ⟨1, _⟩ => show win3_2.index t (1 : Fin 2) * 64 + 1 * k.val = k.val; omega

/-- The first weight's block at any point is the whole first weight. -/
theorem in3_at (c : Dev nD) (t : Fin cfg3.N) (k q : Fin 64) :
    iblk3 V c 3 t (ix2 k q) = V c main_v5 (ix2 k q) := by
  obtain ⟨e0, e1, e2, e3, e4, e5⟩ := idx_consts t
  show V c main_v5 (((cfg3.win 3).blk t).view.emb (ix2 k q)) = _
  refine congrArg _ (funext fun a => Fin.ext ?_)
  match a with
  | ⟨0, _⟩ => show win3_3.index t (0 : Fin 2) * 64 + 1 * k.val = k.val; omega
  | ⟨1, _⟩ => show win3_3.index t (1 : Fin 2) * 64 + 1 * q.val = q.val; omega

/-- The second weight's block at any point is the whole second weight. -/
theorem in4_at (c : Dev nD) (t : Fin cfg3.N) (k q : Fin 64) :
    iblk3 V c 4 t (ix2 k q) = V c main_v6 (ix2 k q) := by
  obtain ⟨e0, e1, e2, e3, e4, e5⟩ := idx_consts t
  show V c main_v6 (((cfg3.win 4).blk t).view.emb (ix2 k q)) = _
  refine congrArg _ (funext fun a => Fin.ext ?_)
  match a with
  | ⟨0, _⟩ => show win3_4.index t (0 : Fin 2) * 64 + 1 * k.val = k.val; omega
  | ⟨1, _⟩ => show win3_4.index t (1 : Fin 2) * 64 + 1 * q.val = q.val; omega

/-- The bias block at any point is the whole bias row. -/
theorem in5_at (c : Dev nD) (t : Fin cfg3.N) (r : Fin 1) (q : Fin 64) :
    iblk3 V c 5 t (ix2 r q) = V c main_v26 (ix2 r q) := by
  obtain ⟨e0, e1, e2, e3, e4, e5⟩ := idx_consts t
  show V c main_v26 (((cfg3.win 5).blk t).view.emb (ix2 r q)) = _
  refine congrArg _ (funext fun a => Fin.ext ?_)
  match a with
  | ⟨0, _⟩ => show win3_5.index t (0 : Fin 2) * 1 + 1 * r.val = r.val; omega
  | ⟨1, _⟩ => show win3_5.index t (1 : Fin 2) * 64 + 1 * q.val = q.val; omega

/-- Entry `(p, q)` of point `t`'s output block sits at row `8000 t + p`, column `q` of the output array. -/
theorem out_emb (t : Fin cfg3.N) (p : Fin 8000) (q : Fin 64) :
    ((cfg3.win 6).blk t).view.emb (ix2 p q) = ix2 (arow t p) q := by
  obtain ⟨e0, e1, e2, e3, e4, e5, e6, e7⟩ := idx_rows t
  funext a; apply Fin.ext
  match a with
  | ⟨0, _⟩ => show win3_6.index t (0 : Fin 2) * 8000 + 1 * p.val = t.val * 8000 + p.val; omega
  | ⟨1, _⟩ => show win3_6.index t (1 : Fin 2) * 64 + 1 * q.val = q.val; omega

/-- What point `t` writes back is block `t` of the edge update `(E · W₀ + (u + v) · W₁) + b` of the arrays the region
    finds. -/
theorem flushed_eq (c : Dev nD) (t : Fin cfg3.N) :
    (dat3 V c).flushed 6 t = ((cfg3.win 6).blk t).view.read (Elt Ideal)
      (edgeOut (V c main_arg2) (V c main_v24) (V c main_v25) (V c main_v5) (V c main_v6) (V c main_v26)) := by
  show (cfg3.win 6).cut (grid3.coords t) ((dat3 V c).after 6 t) = _
  rw [after3_6]
  unfold out3_6
  rw [View.canon_unit_zero hz]
  simp only [View.ld_unit_zero (S := S8000x64) hz, View.ld_unit_zero (S := S64x64) hz, View.ld_unit_zero (S := S1x64) hz]
  funext j
  obtain ⟨p, q, rfl⟩ : ∃ (p : Fin 8000) (q : Fin 64), j = ix2 p q := ⟨j 0, j 1, eq_ix2 j⟩
  show k3_pay1 (iblk3 V c 0 t) (iblk3 V c 1 t) (iblk3 V c 2 t) (iblk3 V c 3 t) (iblk3 V c 4 t) (iblk3 V c 5 t) (ix2 p q)
    = edgeOut (V c main_arg2) (V c main_v24) (V c main_v25) (V c main_v5) (V c main_v6) (V c main_v26)
        (((cfg3.win 6).blk t).view.emb (ix2 p q))
  refine (pay_at (iblk3 V c 0 t) (iblk3 V c 1 t) (iblk3 V c 2 t) (iblk3 V c 3 t) (iblk3 V c 4 t) (iblk3 V c 5 t) p q).trans ?_
  rw [out_emb t p q, in5_at V c t 0 q]
  show _ = (mm _ _ (arow t p) q + mm _ _ (arow t p) q) + _
  unfold mm
  refine congrArg (· + _) (congrArg₂ (· + ·) (Finset.sum_congr rfl fun k _ => ?_) (Finset.sum_congr rfl fun k _ => ?_))
  · rw [in0_at V c t p k, in3_at V c t k q]
  · rw [in1_at V c t p k, in2_at V c t p k, in4_at V c t k q]

/-- An index of the output array lies in point `t`'s block iff each coordinate lies in the block's range. -/
theorem mem_blk (t : Fin cfg3.N) (i : S800000x64.Idx) :
    i ∈ ((cfg3.win 6).blk t).view.set ↔ ∀ a : Fin 2, win3_6.index t a * S8000x64.size a ≤ (i a).val ∧ (i a).val < win3_6.index t a * S8000x64.size a + S8000x64.size a := by
  show i ∈ ((View.whole main_v27).slice (win3_6.rect t)).set ↔ _
  rw [View.set_slice_whole, Rect.mem_set_unit]
  exact Iff.rfl

/-- Every row `r` of the output array lies in the block of point `r / 8000`. -/
theorem cover (i : S800000x64.Idx) : ∃ t : Fin cfg3.N, (cfg3.win 6).flush t = true ∧ i ∈ ((cfg3.win 6).blk t).view.set := by
  have hi0 : (i 0).val < 800000 := (i 0).isLt
  have hi1 : (i 1).val < 64 := (i 1).isLt
  have ht : (i 0).val / 8000 < cfg3.N := by show (i 0).val / 8000 < 100; omega
  obtain ⟨-, -, -, -, -, -, e12, e13⟩ := idx_rows ⟨(i 0).val / 8000, ht⟩
  refine ⟨⟨(i 0).val / 8000, ht⟩, flush3_6 _, ?_⟩
  rw [mem_blk]
  intro a
  match a with
  | ⟨0, _⟩ =>
    show win3_6.index ⟨(i 0).val / 8000, ht⟩ (0 : Fin 2) * 8000 ≤ (i 0).val ∧ (i 0).val < win3_6.index ⟨(i 0).val / 8000, ht⟩ (0 : Fin 2) * 8000 + 8000
    rw [e12]
    show (i 0).val / 8000 * 8000 ≤ (i 0).val ∧ (i 0).val < (i 0).val / 8000 * 8000 + 8000
    omega
  | ⟨1, _⟩ =>
    show win3_6.index ⟨(i 0).val / 8000, ht⟩ (1 : Fin 2) * 64 ≤ (i 1).val ∧ (i 1).val < win3_6.index ⟨(i 0).val / 8000, ht⟩ (1 : Fin 2) * 64 + 64
    omega

/-- After the region its output array is the edge update of the arrays the region found. -/
theorem array_eq (c : Dev nD) :
    (dat3 V c).arrAt 6 cfg3.N
      = edgeOut (V c main_arg2) (V c main_v24) (V c main_v25) (V c main_v5) (V c main_v6) (V c main_v26) :=
  (dat3 V c).arrAt_eq_of_cover 6 _ (fun t _ => flushed_eq V c t) cover

end Cert.Gnn.Region3

end
-- ==== Proof.KThreadB.lean ====
/-
  The buffers' contents at the boundaries of the kernel program's last two dense regions and the host stretches around
  them: the node result, the two gathered projections, the edge bias as a row, and the edge result.
-/
import proofs.«431017_j90924457656405_3_alg».proof.Proof.Gen.KernelIdeal.Frame
import proofs.«431017_j90924457656405_3_alg».proof.Proof.Spec
import proofs.«431017_j90924457656405_3_alg».proof.Proof.KHost
import proofs.«431017_j90924457656405_3_alg».proof.Proof.KVals
import proofs.«431017_j90924457656405_3_alg».proof.Proof.KThreadA
import proofs.«431017_j90924457656405_3_alg».proof.Proof.KOut
import proofs.«431017_j90924457656405_3_alg».proof.Proof.Region2
import proofs.«431017_j90924457656405_3_alg».proof.Proof.Region3
import Idealize.ShloMosaic.Lib.StableHlo.Run
import Idealize.ShloMosaic.Lib.Pipeline.Value

set_option maxRecDepth 16384

noncomputable section

namespace Cert.Gnn.Thread

open Cert.KernelIdeal Cert.KernelIdeal.Gen Cert.Gnn
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- A buffer a host stretch does not write, carried across it from the contents `Wp` before the stretch (taken as an
    unknown, so that nothing before the stretch is opened). -/
macro "host_carry " ops:term " from " Wp:term " by " h:term : tactic =>
  `(tactic| (have hh := $h
             show StableHlo.after $ops $Wp (Proc.devRef .tc _) = _
             generalize $Wp = Wq at hh ⊢
             after_results
             exact hh))

/-! ## Leaving region 2: the node result is written -/

theorem W6_v23 : W6 m ρ c (Proc.devRef .tc main_v23) = hout m c :=
  (W6_arr m ρ c 7).trans ((Region2.array_eq (V5 m ρ) c).trans (by
    show nodeOut (W5 m ρ c (Proc.devRef .tc main_arg0)) (W5 m ρ c (Proc.devRef .tc main_arg1)) (W5 m ρ c (Proc.devRef .tc main_v21))
      (W5 m ρ c (Proc.devRef .tc main_v0)) (W5 m ρ c (Proc.devRef .tc main_v1)) (W5 m ρ c (Proc.devRef .tc main_v2))
      (W5 m ρ c (Proc.devRef .tc main_v22)) = _
    rw [W5_arg0, W5_arg1, W5_v21, W5_v0, W5_v1, W5_v2, W5_v22]))
theorem W6_arg2 : W6 m ρ c (Proc.devRef .tc main_arg2) = A m c main_arg2 := (W6_of_ne m ρ c main_arg2 (by decide)).trans (W5_arg2 m ρ c)
theorem W6_arg3 : W6 m ρ c (Proc.devRef .tc main_arg3) = A m c main_arg3 := (W6_of_ne m ρ c main_arg3 (by decide)).trans (W5_arg3 m ρ c)
theorem W6_arg4 : W6 m ρ c (Proc.devRef .tc main_arg4) = A m c main_arg4 := (W6_of_ne m ρ c main_arg4 (by decide)).trans (W5_arg4 m ρ c)
theorem W6_arg12 : W6 m ρ c (Proc.devRef .tc main_arg12) = A m c main_arg12 := (W6_of_ne m ρ c main_arg12 (by decide)).trans (W5_arg12 m ρ c)
theorem W6_v5 : W6 m ρ c (Proc.devRef .tc main_v5) = we0 m c := (W6_of_ne m ρ c main_v5 (by decide)).trans (W5_v5 m ρ c)
theorem W6_v6 : W6 m ρ c (Proc.devRef .tc main_v6) = we1 m c := (W6_of_ne m ρ c main_v6 (by decide)).trans (W5_v6 m ρ c)
theorem W6_v7_1 : W6 m ρ c (Proc.devRef .tc main_v7_1) = hu m c := (W6_of_ne m ρ c main_v7_1 (by decide)).trans (W5_v7_1 m ρ c)
theorem W6_v7_2 : W6 m ρ c (Proc.devRef .tc main_v7_2) = hv m c := (W6_of_ne m ρ c main_v7_2 (by decide)).trans (W5_v7_2 m ρ c)

/-! ## The second projection gathered by source -/

theorem W7_v24 : W7 m ρ c (Proc.devRef .tc main_v24) = hug m c :=
  (take1_read (W6 m ρ c)).trans (congrArg₂ (takeRows (F := Ideal)) (W6_v7_1 m ρ c) (W6_arg3 m ρ c))
theorem W7_v23 : W7 m ρ c (Proc.devRef .tc main_v23) = hout m c := by host_read; exact W6_v23 m ρ c
theorem W7_arg2 : W7 m ρ c (Proc.devRef .tc main_arg2) = A m c main_arg2 := by host_read; exact W6_arg2 m ρ c
theorem W7_arg4 : W7 m ρ c (Proc.devRef .tc main_arg4) = A m c main_arg4 := by host_read; exact W6_arg4 m ρ c
theorem W7_arg12 : W7 m ρ c (Proc.devRef .tc main_arg12) = A m c main_arg12 := by host_read; exact W6_arg12 m ρ c
theorem W7_v5 : W7 m ρ c (Proc.devRef .tc main_v5) = we0 m c := by host_read; exact W6_v5 m ρ c
theorem W7_v6 : W7 m ρ c (Proc.devRef .tc main_v6) = we1 m c := by host_read; exact W6_v6 m ρ c
theorem W7_v7_2 : W7 m ρ c (Proc.devRef .tc main_v7_2) = hv m c := by host_read; exact W6_v7_2 m ρ c

/-! ## The third projection gathered by destination -/

theorem W8_v25 : W8 m ρ c (Proc.devRef .tc main_v25) = hvg m c :=
  (take2_read (W7 m ρ c)).trans (congrArg₂ (takeRows (F := Ideal)) (W7_v7_2 m ρ c) (W7_arg4 m ρ c))
theorem W8_v23 : W8 m ρ c (Proc.devRef .tc main_v23) = hout m c := by host_carry hostOps3_1 from (W7 m ρ c) by (W7_v23 m ρ c)
theorem W8_v24 : W8 m ρ c (Proc.devRef .tc main_v24) = hug m c := by host_carry hostOps3_1 from (W7 m ρ c) by (W7_v24 m ρ c)
theorem W8_arg2 : W8 m ρ c (Proc.devRef .tc main_arg2) = A m c main_arg2 := by host_carry hostOps3_1 from (W7 m ρ c) by (W7_arg2 m ρ c)
theorem W8_arg12 : W8 m ρ c (Proc.devRef .tc main_arg12) = A m c main_arg12 := by host_carry hostOps3_1 from (W7 m ρ c) by (W7_arg12 m ρ c)
theorem W8_v5 : W8 m ρ c (Proc.devRef .tc main_v5) = we0 m c := by host_carry hostOps3_1 from (W7 m ρ c) by (W7_v5 m ρ c)
theorem W8_v6 : W8 m ρ c (Proc.devRef .tc main_v6) = we1 m c := by host_carry hostOps3_1 from (W7 m ρ c) by (W7_v6 m ρ c)

/-! ## Entering region 3: the edge bias becomes a row -/

theorem W9_v26 : W9 m ρ c (Proc.devRef .tc main_v26) = be m c := by
  have hh := W8_arg12 m ρ c
  show StableHlo.after hostOps3_2 (W8 m ρ c) (Proc.devRef .tc main_v26) = _
  generalize W8 m ρ c = Wq at hh ⊢
  after_results
  rw [hh]
  rfl
theorem W9_v23 : W9 m ρ c (Proc.devRef .tc main_v23) = hout m c := by host_carry hostOps3_2 from (W8 m ρ c) by (W8_v23 m ρ c)
theorem W9_v24 : W9 m ρ c (Proc.devRef .tc main_v24) = hug m c := by host_carry hostOps3_2 from (W8 m ρ c) by (W8_v24 m ρ c)
theorem W9_v25 : W9 m ρ c (Proc.devRef .tc main_v25) = hvg m c := by host_carry hostOps3_2 from (W8 m ρ c) by (W8_v25 m ρ c)
theorem W9_arg2 : W9 m ρ c (Proc.devRef .tc main_arg2) = A m c main_arg2 := by host_carry hostOps3_2 from (W8 m ρ c) by (W8_arg2 m ρ c)
theorem W9_v5 : W9 m ρ c (Proc.devRef .tc main_v5) = we0 m c := by host_carry hostOps3_2 from (W8 m ρ c) by (W8_v5 m ρ c)
theorem W9_v6 : W9 m ρ c (Proc.devRef .tc main_v6) = we1 m c := by host_carry hostOps3_2 from (W8 m ρ c) by (W8_v6 m ρ c)

/-! ## At the return -/

/-- The node result array at the return: the node update of the arguments. -/
theorem W10_v23 : W10 m ρ c (Proc.devRef .tc main_v23)
    = nodeResult (A m c main_arg0) (A m c main_arg1) (A m c main_arg2) (A m c main_arg3) (A m c main_arg4)
        (A m c main_arg5) (A m c main_arg6) (A m c main_arg7) (A m c main_arg8) :=
  (W10_of_ne m ρ c main_v23 (by decide)).trans (W9_v23 m ρ c)

/-- The edge result array at the return: the edge update of the arguments. -/
theorem W10_v27 : W10 m ρ c (Proc.devRef .tc main_v27)
    = edgeResult (A m c main_arg0) (A m c main_arg1) (A m c main_arg2) (A m c main_arg3) (A m c main_arg4)
        (A m c main_arg9) (A m c main_arg10) (A m c main_arg11) (A m c main_arg12) :=
  (W10_arr m ρ c 6).trans ((Region3.array_eq (V9 m ρ) c).trans (by
    show edgeOut (W9 m ρ c (Proc.devRef .tc main_arg2)) (W9 m ρ c (Proc.devRef .tc main_v24)) (W9 m ρ c (Proc.devRef .tc main_v25))
      (W9 m ρ c (Proc.devRef .tc main_v5)) (W9 m ρ c (Proc.devRef .tc main_v6)) (W9 m ρ c (Proc.devRef .tc main_v26)) = _
    rw [W9_arg2, W9_v24, W9_v25, W9_v5, W9_v6, W9_v26]
    rfl))

end Cert.Gnn.Thread

end
-- ==== Proof.Take.lean ====
/-
  With every index a node, `jnp.take`'s fill never applies: the gathered rows come back unchanged.
-/
import proofs.«431017_j90924457656405_3_alg».proof.Proof.KHost
import Idealize.ShloMosaic.Lib.StableHlo.Predicate
import Idealize.ShloMosaic.Lib.ReduceAll
import Idealize.ShloMosaic.Lib.ValueIdx

noncomputable section

namespace Cert.Gnn

open Cert.KernelIdeal Cert.KernelIdeal.Gen
open Idealize.ShloMosaic Idealize.ShloMosaic.ValueIdx

variable {F : FTy → Type} [FloatOps F]

/-- A vector of 800000 entries kept as an [800000 × 1] column reads, at (p, q), the vector at `p`. -/
private theorem col_apply {α : Type} (v : S800000.Idx → α) (p : Fin 800000) (q : Fin 1) :
    broadcastInDim S800000x1 ![0] bcast_S800000_S800000x1_0 v (ix2 p q) = v (ix1 p) := by
  simp only [broadcastInDim]
  congr 1
  funext a
  obtain rfl : a = 0 := Subsingleton.elim _ _
  apply Fin.ext
  split
  · next h1 => exact absurd h1 (by decide)
  · rfl

/-- A fold of `and` from 1 over one-bit words that are all 1 is 1. -/
private theorem fold_andi_ones {ι : Type} (S : Finset ι) (f : ι → BitVec 1) (hf : ∀ i, f i = 1#1) :
    S.fold IntOp.andi 1#1 f = 1#1 := by
  induction S using Finset.cons_induction with
  | empty => rfl
  | cons a S ha ih => rw [Finset.fold_cons, ih, hf a]; rfl

/-- A word below 50000 is non-negative read signed, so the wrap of negative indices leaves it alone: the start-index
    column's entry (p, q) is the index `p` itself. -/
private theorem startIdx_apply (idx : IVec S800000 32) (h : InRange idx) (p : Fin 800000) (q : Fin 1) :
    startIdx idx (ix2 p q) = idx (ix1 p) := by
  unfold startIdx
  refine (col_apply _ p q).trans ?_
  show Scalar.select (IntOp.cmpi .slt (idx (ix1 p)) 0#32) (IntOp.addi (idx (ix1 p)) 50000#32) (idx (ix1 p)) = idx (ix1 p)
  have hv : (idx (ix1 p)).toNat < 50000 := h (ix1 p)
  have h0 : IntOp.cmpi .slt (idx (ix1 p)) 0#32 = 0#1 := by
    apply eq_zero_of_ne_one
    intro hc
    have hlt := (StableHlo.Predicate.slt_iff_toNat (a := idx (ix1 p)) (b := 0#32) (by omega) (by decide)).1 hc
    have z : (0#32 : BitVec 32).toNat = 0 := rfl
    omega
  rw [h0]
  exact select_zero _ _

/-- The two range compares at a start index that is a node: both hold. -/
private theorem inRange_bit (w : BitVec 32) (hw : w.toNat < 50000) :
    IntOp.andi (IntOp.cmpi .sge w 0#32) (IntOp.cmpi .sle w 49999#32) = 1#1 := by
  have z : (0#32 : BitVec 32).toNat = 0 := rfl
  have t : (49999#32 : BitVec 32).toNat = 49999 := rfl
  have h1 : IntOp.cmpi .sge w 0#32 = 1#1 :=
    (StableHlo.Predicate.sge_iff_toNat (a := w) (b := 0#32) (by omega) (by decide)).2 (by omega)
  have h2 : IntOp.cmpi .sle w 49999#32 = 1#1 :=
    (StableHlo.Predicate.sle_iff_toNat (a := w) (b := 49999#32) (by omega) (by decide)).2 (by omega)
  rw [h1, h2]
  rfl

/-- When every index names a node, no row is out of range: the validity mask is all ones. -/
theorem validRows_of_inRange (idx : IVec S800000 32) (h : InRange idx) : validRows idx = fun _ => 1#1 := by
  classical
  funext e
  unfold validRows
  refine (Host.reduce_eq_fold _ _ _ _ _ _).trans ?_
  refine fold_andi_ones _ _ ?_
  intro j
  obtain ⟨p, q, rfl⟩ : ∃ (p : Fin 800000) (q : Fin 1), j = ix2 p q := ⟨j 0, j 1, eq_ix2 j⟩
  show IntOp.andi (IntOp.cmpi .sge (startIdx idx (ix2 p q)) 0#32) (IntOp.cmpi .sle (startIdx idx (ix2 p q)) 49999#32) = 1#1
  rw [startIdx_apply idx h p q]
  exact inRange_bit _ (h (ix1 p))

/-- When every index names a node, `take` is plain row indexing. -/
theorem takeRows_eq (x : FVec F S50000x64 .f32) (idx : IVec S800000 32) (h : InRange idx) :
    takeRows x idx = gatherRows x idx := by
  funext j
  unfold takeRows
  rw [validRows_of_inRange idx h]
  exact select_one _ _

end Cert.Gnn

end
-- ==== Proof.RefProj.lean ====
/-
  The reference's dense steps are the specification's: a `dot_general` over the 64 (or 128) shared coordinates is the
  row-by-matrix sum, and a product of a concatenated row with a 128-row weight is the sum of the two halves' products
  with the weight's two 64-row bands.
-/
import proofs.«431017_j90924457656405_3_alg».proof.Proof.Gen.ReferenceIdeal.Read
import proofs.«431017_j90924457656405_3_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

open scoped BigOperators

namespace Cert.Gnn.Ref

open Cert.ReferenceIdeal Cert.ReferenceIdeal.Gen Cert.Gnn
open Idealize.ShloMosaic Idealize.ShloMosaic.TcCoe Idealize.ShloMosaic.ValueIdx

/-! ### The operand indices of the three `dot_general`s, at an index split into its coordinates -/

private theorem lidx0 (p : Fin 50000) (q k : Fin 64) : Read.lidx_main_v0 (ix2 p q) k = ix2 p k := by
  funext a; match a with | ⟨0, _⟩ => rfl | ⟨1, _⟩ => rfl

private theorem ridx0 (p : Fin 50000) (q k : Fin 64) : Read.ridx_main_v0 (ix2 p q) k = ix2 k q := by
  funext a; match a with | ⟨0, _⟩ => rfl | ⟨1, _⟩ => rfl

private theorem lidx1 (p : Fin 800000) (q k : Fin 64) : Read.lidx_main_v1 (ix2 p q) k = ix2 p k := by
  funext a; match a with | ⟨0, _⟩ => rfl | ⟨1, _⟩ => rfl

private theorem ridx1 (p : Fin 800000) (q k : Fin 64) : Read.ridx_main_v1 (ix2 p q) k = ix2 k q := by
  funext a; match a with | ⟨0, _⟩ => rfl | ⟨1, _⟩ => rfl

private theorem lidx29 (p : Fin 50000) (q : Fin 64) (k : Fin 128) : Read.lidx_main_v29 (ix2 p q) k = ix2 p k := by
  funext a; match a with | ⟨0, _⟩ => rfl | ⟨1, _⟩ => rfl

private theorem ridx29 (p : Fin 50000) (q : Fin 64) (k : Fin 128) : Read.ridx_main_v29 (ix2 p q) k = ix2 k q := by
  funext a; match a with | ⟨0, _⟩ => rfl | ⟨1, _⟩ => rfl

/-! ### A sum over 128 coordinates is the sum over the first 64 plus the sum over the last 64 -/

private theorem sum128 (f : Fin 128 → EReal) :
    ∑ k : Fin 128, f k
      = ∑ k : Fin 64, f ⟨k.val, by have := k.isLt; omega⟩ + ∑ k : Fin 64, f ⟨64 + k.val, by have := k.isLt; omega⟩ :=
  Fin.sum_univ_add (a := 64) (b := 64) f

/-! ### The concatenation of two 64-wide rows, and a 64-row band of a 128-row weight, read at an index -/

private theorem cat_left (x0 x1 : FVec Ideal S50000x64 .f32) (p : Fin 50000) (k : Fin 64) (j : Fin 128)
    (hj : j.val = k.val) :
    concatenate S50000x128 1 [⟨S50000x64, x0⟩, ⟨S50000x64, x1⟩] concatenates_S50000x64_S50000x64_S50000x128_d1 (ix2 p j)
      = x0 (ix2 p k) :=
  concatenate_pair_apply_left 1 x0 x1 concatenates_S50000x64_S50000x64_S50000x128_d1 _ rfl _ (fun b => by
    match b with
    | ⟨0, _⟩ => rfl
    | ⟨1, _⟩ => exact hj.symm)

private theorem cat_right (x0 x1 : FVec Ideal S50000x64 .f32) (p : Fin 50000) (k : Fin 64) (j : Fin 128)
    (hj : k.val + 64 = j.val) :
    concatenate S50000x128 1 [⟨S50000x64, x0⟩, ⟨S50000x64, x1⟩] concatenates_S50000x64_S50000x64_S50000x128_d1 (ix2 p j)
      = x1 (ix2 p k) :=
  concatenate_pair_apply_right 1 x0 x1 concatenates_S50000x64_S50000x64_S50000x128_d1 _ rfl rfl _
    (fun b hb => by
      match b with
      | ⟨0, _⟩ => rfl
      | ⟨1, _⟩ => exact absurd rfl hb)
    hj

private theorem band (w : FVec Ideal S128x64 .f32) (off : Nat) (h : S128x64.Slices ![off, 0] S64x64)
    (k q : Fin 64) (j : Fin 128) (hj : j.val = off + k.val) :
    extractStridedSlice S64x64 ![off, 0] w h (ix2 k q) = w (ix2 j q) :=
  extractStridedSlice_apply ![off, 0] w h (ix2 k q) (ix2 j q) (by
    intro a; fin_cases a <;> simp [ix2, hj])

/-- The node projection `X · W` is the reference's `dot_general` of the node features with a 64 × 64 weight. -/
theorem proj_nodes (x : FVec Ideal S50000x64 .f32) (w : FVec Ideal S64x64 .f32) :
    proj x w = Host.dotGeneral dot_S50000x64_S64x64_S50000x64_1_0_0_1_n_n none x w := by
  funext i
  obtain ⟨p, q, rfl⟩ : ∃ (p : Fin 50000) (q : Fin 64), i = ix2 p q := ⟨i 0, i 1, eq_ix2 i⟩
  refine Eq.trans ?_ (Read.val_main_v0_apply x w (ix2 p q)).symm
  show ∑ k : Fin 64, x (ix2 p k) * w (ix2 k q) = _
  refine Finset.sum_congr rfl fun k _ => ?_
  rw [lidx0, ridx0]

/-- `S · W[0:64] + X · W[64:128]` is the reference's `dot_general` of the concatenated rows `[S, X]` with the 128-row
    weight: one sum over 128 coordinates split at 64. -/
theorem proj2_nodes (x0 x1 : FVec Ideal S50000x64 .f32) (w : FVec Ideal S128x64 .f32)
    (h0 : S128x64.Slices ![0, 0] S64x64) (h1 : S128x64.Slices ![64, 0] S64x64) :
    proj2 x0 x1 (extractStridedSlice S64x64 ![0, 0] w h0) (extractStridedSlice S64x64 ![64, 0] w h1)
      = Host.dotGeneral dot_S50000x128_S128x64_S50000x64_1_0_0_1_n_n none
          (concatenate S50000x128 1 [⟨S50000x64, x0⟩, ⟨S50000x64, x1⟩] concatenates_S50000x64_S50000x64_S50000x128_d1) w := by
  funext i
  obtain ⟨p, q, rfl⟩ : ∃ (p : Fin 50000) (q : Fin 64), i = ix2 p q := ⟨i 0, i 1, eq_ix2 i⟩
  refine Eq.trans ?_ (Read.val_main_v29_apply x0 x1 w (ix2 p q)).symm
  refine Eq.trans ?_ (sum128 _).symm
  show (∑ k : Fin 64, x0 (ix2 p k) * extractStridedSlice S64x64 ![0, 0] w h0 (ix2 k q))
      + (∑ k : Fin 64, x1 (ix2 p k) * extractStridedSlice S64x64 ![64, 0] w h1 (ix2 k q)) = _
  refine congrArg₂ (· + ·) (Finset.sum_congr rfl fun k _ => ?_) (Finset.sum_congr rfl fun k _ => ?_)
  · rw [lidx29, ridx29]
    exact congrArg₂ (· * ·) (cat_left x0 x1 p k _ rfl).symm (band w 0 h0 k q _ (by simp))
  · rw [lidx29, ridx29]
    exact congrArg₂ (· * ·) (cat_right x0 x1 p k _ (Nat.add_comm _ _)).symm (band w 64 h1 k q _ rfl)

/-- The edge message `E · W + g` is the reference's `g + E · W` (addition of extended reals commutes). -/
theorem msg_edges (x2 g : FVec Ideal S800000x64 .f32) (w : FVec Ideal S64x64 .f32) :
    msg x2 g w = addf g (Host.dotGeneral dot_S800000x64_S64x64_S800000x64_1_0_0_1_n_n none x2 w) := by
  funext i
  obtain ⟨p, q, rfl⟩ : ∃ (p : Fin 800000) (q : Fin 64), i = ix2 p q := ⟨i 0, i 1, eq_ix2 i⟩
  refine Eq.trans ?_ (addf_apply g _ (ix2 p q)).symm
  refine Eq.trans ?_ (add_comm _ _)
  refine congrArg (· + g (ix2 p q)) ?_
  refine Eq.trans ?_ (Read.val_main_v1_apply x2 w (ix2 p q)).symm
  show ∑ k : Fin 64, x2 (ix2 p k) * w (ix2 k q) = _
  refine Finset.sum_congr rfl fun k _ => ?_
  rw [lidx1, ridx1]

end Cert.Gnn.Ref

end
-- ==== Proof.RefOut.lean ====
/-
  The reference's two outputs are the specification's: the product of a concatenated row `[S, X, H]` (or `[E, u + v]`)
  with the 192-row (128-row) weight is the sum of the pieces' products with the weight's 64-row bands, and the bias
  broadcast over the rows is the bias row read at the column.
-/
import proofs.«431017_j90924457656405_3_alg».proof.Proof.Gen.ReferenceIdeal.Read
import proofs.«431017_j90924457656405_3_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

open scoped BigOperators

namespace Cert.Gnn.RefOut

open Cert.ReferenceIdeal Cert.ReferenceIdeal.Gen Cert.Gnn
open Idealize.ShloMosaic Idealize.ShloMosaic.TcCoe Idealize.ShloMosaic.ValueIdx

/-! ## One finite sum, regrouped in bands of 64 -/

/-- A sum over 128 terms is the sum of its first 64 plus the sum of its last 64. -/
private theorem sum128 (f : Fin 128 → EReal) :
    ∑ k : Fin 128, f k
      = ∑ k : Fin 64, f ⟨k.val, by have := k.isLt; omega⟩ + ∑ k : Fin 64, f ⟨64 + k.val, by have := k.isLt; omega⟩ :=
  Fin.sum_univ_add (a := 64) (b := 64) f

/-- A sum over 192 terms is the sum of its three bands of 64, associated to the left. -/
private theorem sum192 (f : Fin 192 → EReal) :
    ∑ k : Fin 192, f k
      = (∑ k : Fin 64, f ⟨k.val, by have := k.isLt; omega⟩ + ∑ k : Fin 64, f ⟨64 + k.val, by have := k.isLt; omega⟩)
          + ∑ k : Fin 64, f ⟨128 + k.val, by have := k.isLt; omega⟩ := by
  have h := Fin.sum_univ_add (a := 128) (b := 64) f
  have h2 := sum128 (fun k => f (Fin.castAdd 64 k))
  exact h.trans (congrArg (· + ∑ k : Fin 64, f (Fin.natAdd 128 k)) h2)

/-! ## The reference's `dot_general` at an index -/

/-- Entry `(p, q)` of the product of a 192-wide array with a 192-row weight is the sum over the shared coordinate. -/
private theorem dot192_apply (y : FVec Ideal S50000x192 .f32) (w : FVec Ideal S192x64 .f32) (p : Fin 50000) (q : Fin 64) :
    Host.dotGeneral dot_S50000x192_S192x64_S50000x64_1_0_0_1_n_n none y w (ix2 p q)
      = ∑ k : Fin 192, y (ix2 p k) * w (ix2 k q) := by
  simp only [Host.dotGeneral]
  rw [Ideal.dotGeneral_apply, ← Equiv.sum_comp (ValueIdx.contrEquiv1 dot_S50000x192_S192x64_S50000x64_1_0_0_1_n_n 192 rfl rfl).symm]
  refine Finset.sum_congr rfl fun k _ => ?_
  have hk := ValueIdx.contrEquiv1_symm_val dot_S50000x192_S192x64_S50000x64_1_0_0_1_n_n 192 rfl rfl k
  have el : dot_S50000x192_S192x64_S50000x64_1_0_0_1_n_n.lhsIdx (ix2 p q) ((ValueIdx.contrEquiv1 dot_S50000x192_S192x64_S50000x64_1_0_0_1_n_n 192 rfl rfl).symm k) = ix2 p k := funext fun a => Fin.ext (by
    match a with
    | ⟨0, _⟩ => exact Read.lhs_main_v23_0 _ _
    | ⟨1, _⟩ => exact (Read.lhs_main_v23_1 _ _).trans hk)
  have er : dot_S50000x192_S192x64_S50000x64_1_0_0_1_n_n.rhsIdx (ix2 p q) ((ValueIdx.contrEquiv1 dot_S50000x192_S192x64_S50000x64_1_0_0_1_n_n 192 rfl rfl).symm k) = ix2 k q := funext fun a => Fin.ext (by
    match a with
    | ⟨0, _⟩ => exact (Read.rhs_main_v23_0 _ _).trans hk
    | ⟨1, _⟩ => exact Read.rhs_main_v23_1 _ _)
  rw [el, er]

/-- Entry `(p, q)` of the product of a 128-wide array with a 128-row weight is the sum over the shared coordinate. -/
private theorem dot128_apply (y : FVec Ideal S800000x128 .f32) (w : FVec Ideal S128x64 .f32) (p : Fin 800000) (q : Fin 64) :
    Host.dotGeneral dot_S800000x128_S128x64_S800000x64_1_0_0_1_n_n none y w (ix2 p q)
      = ∑ k : Fin 128, y (ix2 p k) * w (ix2 k q) := by
  simp only [Host.dotGeneral]
  rw [Ideal.dotGeneral_apply, ← Equiv.sum_comp (ValueIdx.contrEquiv1 dot_S800000x128_S128x64_S800000x64_1_0_0_1_n_n 128 rfl rfl).symm]
  refine Finset.sum_congr rfl fun k _ => ?_
  have hk := ValueIdx.contrEquiv1_symm_val dot_S800000x128_S128x64_S800000x64_1_0_0_1_n_n 128 rfl rfl k
  have el : dot_S800000x128_S128x64_S800000x64_1_0_0_1_n_n.lhsIdx (ix2 p q) ((ValueIdx.contrEquiv1 dot_S800000x128_S128x64_S800000x64_1_0_0_1_n_n 128 rfl rfl).symm k) = ix2 p k := funext fun a => Fin.ext (by
    match a with
    | ⟨0, _⟩ => exact Read.lhs_main_v46_0 _ _
    | ⟨1, _⟩ => exact (Read.lhs_main_v46_1 _ _).trans hk)
  have er : dot_S800000x128_S128x64_S800000x64_1_0_0_1_n_n.rhsIdx (ix2 p q) ((ValueIdx.contrEquiv1 dot_S800000x128_S128x64_S800000x64_1_0_0_1_n_n 128 rfl rfl).symm k) = ix2 k q := funext fun a => Fin.ext (by
    match a with
    | ⟨0, _⟩ => exact (Read.rhs_main_v46_0 _ _).trans hk
    | ⟨1, _⟩ => exact Read.rhs_main_v46_1 _ _)
  rw [el, er]

/-! ## A concatenation of 64-wide pieces along the columns, at an index -/

/-- Column `off + k` of a concatenation along the columns is column `k` of the piece whose span starts at `off`. -/
private theorem cat_apply {α : Type} {r c : Nat} (xs : List ((s : Shape) × (s.Idx → α)))
    (h : Shape.Concatenates (xs.map (·.1)) (⟨2, ![r, c]⟩ : Shape) 1)
    (n : Nat) (hn : n < xs.length) (x : (⟨2, ![r, 64]⟩ : Shape).Idx → α) (hx : xs[n] = ⟨⟨2, ![r, 64]⟩, x⟩)
    (off : Nat)
    (hoff : (((xs.take n).map (·.1)).map fun s => if h : s.rank = (⟨2, ![r, c]⟩ : Shape).rank then s.size ((1 : Fin (⟨2, ![r, c]⟩ : Shape).rank).cast h.symm) else 0).sum = off)
    (p : Fin r) (k : Fin 64) (j : Fin c) (hj : j.val = off + k.val) :
    concatenate (⟨2, ![r, c]⟩ : Shape) 1 xs h (ix2 p j) = x (ix2 p k) :=
  concatenate_apply_piece (1 : Fin (⟨2, ![r, c]⟩ : Shape).rank) xs h (ix2 p j) n hn ⟨2, ![r, 64]⟩ x hx rfl off hoff (ix2 p k)
    (fun b hb => by
      match b with
      | ⟨0, _⟩ => rfl
      | ⟨1, _⟩ => exact absurd rfl hb)
    hj.symm

/-! ## One band of the long sum -/

/-- The product of a 64-wide piece with the 64-row band of the weight that starts at row `off` is the part of the long
    sum over the band's coordinates: the long row reads the piece there, and the band reads the weight there. -/
private theorem band_eq {r c kw : Nat} (x : Arr r 64) (y : Arr r c) (w : Arr kw 64) (off : Nat)
    (h : (⟨2, ![kw, 64]⟩ : Shape).Slices ![off, 0] ⟨2, ![64, 64]⟩) (p : Fin r) (q : Fin 64)
    (jc : Fin 64 → Fin c) (jw : Fin 64 → Fin kw) (hjw : ∀ k, (jw k).val = off + k.val)
    (hy : ∀ k : Fin 64, y (ix2 p (jc k)) = x (ix2 p k)) :
    mm x (extractStridedSlice ⟨2, ![64, 64]⟩ ![off, 0] w h) p q = ∑ k : Fin 64, y (ix2 p (jc k)) * w (ix2 (jw k) q) := by
  unfold mm
  refine Finset.sum_congr rfl fun k _ => ?_
  rw [hy k, slice2_axis0_apply off w h k q (jw k) (hjw k)]

/-! ## The bias row broadcast over the rows -/

/-- The bias broadcast to one row and then over 50000 rows reads, at `(p, q)`, the bias at `q`. -/
private theorem bias_nodes (b : FVec Ideal S64 .f32) (p : Fin 50000) (q : Fin 64) :
    broadcastInDim S50000x64 ![0, 1] bcast_S1x64_S50000x64_0_1 (broadcastInDim S1x64 ![1] bcast_S64_S1x64_1 b) (ix2 p q)
      = b (ix1 q) := by
  refine (Read.val_main_v25_apply (F := Ideal) b (ix2 p q)).trans ?_
  refine (Read.val_main_v24_apply (F := Ideal) b _).trans ?_
  refine congrArg b (funext fun a => ?_)
  match a with
  | ⟨0, _⟩ => rfl

/-- The bias broadcast to one row and then over 800000 rows reads, at `(p, q)`, the bias at `q`. -/
private theorem bias_edges (b : FVec Ideal S64 .f32) (p : Fin 800000) (q : Fin 64) :
    broadcastInDim S800000x64 ![0, 1] bcast_S1x64_S800000x64_0_1 (broadcastInDim S1x64 ![1] bcast_S64_S1x64_1 b) (ix2 p q)
      = b (ix1 q) := by
  refine (Read.val_main_v48_apply (F := Ideal) b (ix2 p q)).trans ?_
  refine (Read.val_main_v47_apply (F := Ideal) b _).trans ?_
  refine congrArg b (funext fun a => ?_)
  match a with
  | ⟨0, _⟩ => rfl

/-- The node update of the specification is the reference's `[S, X, H] · W + b`. -/
theorem nodeOut_nodes (x0 x1 hn : FVec Ideal S50000x64 .f32) (w : FVec Ideal S192x64 .f32) (b : FVec Ideal S64 .f32)
    (h0 : S192x64.Slices ![0, 0] S64x64) (h1 : S192x64.Slices ![64, 0] S64x64) (h2 : S192x64.Slices ![128, 0] S64x64)
    (hb : S64.ShapeCasts S1x64) :
    nodeOut x0 x1 hn (extractStridedSlice S64x64 ![0, 0] w h0) (extractStridedSlice S64x64 ![64, 0] w h1)
        (extractStridedSlice S64x64 ![128, 0] w h2) (shapeCast S1x64 b hb)
      = addf (Host.dotGeneral dot_S50000x192_S192x64_S50000x64_1_0_0_1_n_n none
            (concatenate S50000x192 1 [⟨S50000x64, x0⟩, ⟨S50000x64, x1⟩, ⟨S50000x64, hn⟩] concatenates_S50000x64_S50000x64_S50000x64_S50000x192_d1) w)
          (broadcastInDim S50000x64 ![0, 1] bcast_S1x64_S50000x64_0_1 (broadcastInDim S1x64 ![1] bcast_S64_S1x64_1 b)) := by
  funext i
  obtain ⟨p, q, rfl⟩ : ∃ (p : Fin 50000) (q : Fin 64), i = ix2 p q := ⟨i 0, i 1, eq_ix2 i⟩
  have hs := sum192 (fun k : Fin 192 =>
    concatenate S50000x192 1 [⟨S50000x64, x0⟩, ⟨S50000x64, x1⟩, ⟨S50000x64, hn⟩]
      concatenates_S50000x64_S50000x64_S50000x64_S50000x192_d1 (ix2 p k) * w (ix2 k q))
  refine Eq.trans ?_ (congrArg₂ (· + ·) ((dot192_apply _ w p q).trans hs).symm (bias_nodes b p q).symm)
  refine congrArg₂ (· + ·) (congrArg₂ (· + ·) (congrArg₂ (· + ·) ?_ ?_) ?_) ?_
  · exact band_eq x0 _ w 0 h0 p q (fun k => ⟨k.val, by have := k.isLt; omega⟩) (fun k => ⟨k.val, by have := k.isLt; omega⟩)
      (fun k => (Nat.zero_add _).symm)
      (fun k => cat_apply [⟨S50000x64, x0⟩, ⟨S50000x64, x1⟩, ⟨S50000x64, hn⟩] concatenates_S50000x64_S50000x64_S50000x64_S50000x192_d1 0 (show (0 : Nat) < 3 by omega) x0 rfl 0 rfl p k _ (Nat.zero_add _).symm)
  · exact band_eq x1 _ w 64 h1 p q (fun k => ⟨64 + k.val, by have := k.isLt; omega⟩) (fun k => ⟨64 + k.val, by have := k.isLt; omega⟩)
      (fun k => rfl)
      (fun k => cat_apply [⟨S50000x64, x0⟩, ⟨S50000x64, x1⟩, ⟨S50000x64, hn⟩] concatenates_S50000x64_S50000x64_S50000x64_S50000x192_d1 1 (show (1 : Nat) < 3 by omega) x1 rfl 64 rfl p k _ rfl)
  · exact band_eq hn _ w 128 h2 p q (fun k => ⟨128 + k.val, by have := k.isLt; omega⟩) (fun k => ⟨128 + k.val, by have := k.isLt; omega⟩)
      (fun k => rfl)
      (fun k => cat_apply [⟨S50000x64, x0⟩, ⟨S50000x64, x1⟩, ⟨S50000x64, hn⟩] concatenates_S50000x64_S50000x64_S50000x64_S50000x192_d1 2 (show (2 : Nat) < 3 by omega) hn rfl 128 rfl p k _ rfl)
  · exact shapeCast_a_1a_apply b hb 0 q

/-- The edge update of the specification is the reference's `[E, u + v] · W + b`. -/
theorem edgeOut_edges (x2 u v : FVec Ideal S800000x64 .f32) (w : FVec Ideal S128x64 .f32) (b : FVec Ideal S64 .f32)
    (h0 : S128x64.Slices ![0, 0] S64x64) (h1 : S128x64.Slices ![64, 0] S64x64) (hb : S64.ShapeCasts S1x64) :
    edgeOut x2 u v (extractStridedSlice S64x64 ![0, 0] w h0) (extractStridedSlice S64x64 ![64, 0] w h1) (shapeCast S1x64 b hb)
      = addf (Host.dotGeneral dot_S800000x128_S128x64_S800000x64_1_0_0_1_n_n none
            (concatenate S800000x128 1 [⟨S800000x64, x2⟩, ⟨S800000x64, addf u v⟩] concatenates_S800000x64_S800000x64_S800000x128_d1) w)
          (broadcastInDim S800000x64 ![0, 1] bcast_S1x64_S800000x64_0_1 (broadcastInDim S1x64 ![1] bcast_S64_S1x64_1 b)) := by
  funext i
  obtain ⟨p, q, rfl⟩ : ∃ (p : Fin 800000) (q : Fin 64), i = ix2 p q := ⟨i 0, i 1, eq_ix2 i⟩
  have hs := sum128 (fun k : Fin 128 =>
    concatenate S800000x128 1 [⟨S800000x64, x2⟩, ⟨S800000x64, addf u v⟩]
      concatenates_S800000x64_S800000x64_S800000x128_d1 (ix2 p k) * w (ix2 k q))
  refine Eq.trans ?_ (congrArg₂ (· + ·) ((dot128_apply _ w p q).trans hs).symm (bias_edges b p q).symm)
  refine congrArg₂ (· + ·) (congrArg₂ (· + ·) ?_ ?_) ?_
  · exact band_eq x2 _ w 0 h0 p q (fun k => ⟨k.val, by have := k.isLt; omega⟩) (fun k => ⟨k.val, by have := k.isLt; omega⟩)
      (fun k => (Nat.zero_add _).symm)
      (fun k => cat_apply [⟨S800000x64, x2⟩, ⟨S800000x64, addf u v⟩] concatenates_S800000x64_S800000x64_S800000x128_d1 0 (show (0 : Nat) < 2 by omega) x2 rfl 0 rfl p k _ (Nat.zero_add _).symm)
  · exact band_eq (fun j => u j + v j) _ w 64 h1 p q (fun k => ⟨64 + k.val, by have := k.isLt; omega⟩) (fun k => ⟨64 + k.val, by have := k.isLt; omega⟩)
      (fun k => rfl)
      (fun k => cat_apply [⟨S800000x64, x2⟩, ⟨S800000x64, addf u v⟩] concatenates_S800000x64_S800000x64_S800000x128_d1 1 (show (1 : Nat) < 2 by omega) (addf u v) rfl 64 rfl p k _ rfl)
  · exact shapeCast_a_1a_apply b hb 0 q

end Cert.Gnn.RefOut

end
-- ==== Proof.Bridge.lean ====
/-
  With every edge endpoint a node, the kernel program's two results are the reference's, as whole arrays: the gathers
  coincide (the fill of `take` never applies), each dense step of the kernel is the reference's `dot_general`
  (a sum over 64 coordinates, or a longer sum split into 64-long bands), and the steps in between (the scatter-add mean,
  the gathers) are the same operations applied to equal arrays.
-/
import proofs.«431017_j90924457656405_3_alg».proof.Proof.KOut
import proofs.«431017_j90924457656405_3_alg».proof.Proof.Take
import proofs.«431017_j90924457656405_3_alg».proof.Proof.RefProj
import proofs.«431017_j90924457656405_3_alg».proof.Proof.RefOut

set_option maxRecDepth 16384

noncomputable section

namespace Cert.Gnn

open Idealize.ShloMosaic

/-- The kernel's node result is the reference's first result. -/
theorem nodeResult_eq (x0 x1 : FVec Ideal Cert.KernelIdeal.S50000x64 .f32) (x2 : FVec Ideal Cert.KernelIdeal.S800000x64 .f32)
    (x3 x4 : IVec Cert.KernelIdeal.S800000 32) (x5 : FVec Ideal Cert.KernelIdeal.S64x64 .f32) (x6 : FVec Ideal Cert.KernelIdeal.S192x64 .f32)
    (x7 : FVec Ideal Cert.KernelIdeal.S64x64 .f32) (x8 : FVec Ideal Cert.KernelIdeal.S64 .f32) (h3 : InRange x3) :
    nodeResult x0 x1 x2 x3 x4 x5 x6 x7 x8 = Cert.ReferenceIdeal.Read.val_main_v26 (F := Ideal) x0 x1 x2 x3 x4 x5 x6 x7 x8 := by
  have hg : takeRows (F := Ideal) (proj x1 x5) x3 = Cert.ReferenceIdeal.Read.val_main_v8 (F := Ideal) x1 x3 x5 :=
    (takeRows_eq (F := Ideal) (proj x1 x5) x3 h3).trans
      (congrArg (fun y => gatherRows (F := Ideal) y x3) (Ref.proj_nodes x1 x5))
  have hm : msg x2 (takeRows (F := Ideal) (proj x1 x5) x3) x7 = Cert.ReferenceIdeal.Read.val_main_v9 (F := Ideal) x1 x2 x3 x5 x7 :=
    (congrArg (fun g => msg x2 g x7) hg).trans (Ref.msg_edges x2 (Cert.ReferenceIdeal.Read.val_main_v8 (F := Ideal) x1 x3 x5) x7)
  have hn : meanAgg (F := Ideal) (msg x2 (takeRows (F := Ideal) (proj x1 x5) x3) x7) x4
      = Cert.ReferenceIdeal.Read.val_main_v21 (F := Ideal) x1 x2 x3 x4 x5 x7 :=
    congrArg (fun m => meanAgg (F := Ideal) m x4) hm
  unfold nodeResult
  rw [hn]
  exact RefOut.nodeOut_nodes x0 x1 (Cert.ReferenceIdeal.Read.val_main_v21 (F := Ideal) x1 x2 x3 x4 x5 x7) x6 x8
    Cert.KernelIdeal.Gen.slices_S192x64_S64x64_0_0 Cert.KernelIdeal.Gen.slices_S192x64_S64x64_64_0
    Cert.KernelIdeal.Gen.slices_S192x64_S64x64_128_0 Cert.KernelIdeal.Gen.shapeCasts_S64_S1x64

/-- The kernel's edge result is the reference's second result. -/
theorem edgeResult_eq (x0 x1 : FVec Ideal Cert.KernelIdeal.S50000x64 .f32) (x2 : FVec Ideal Cert.KernelIdeal.S800000x64 .f32)
    (x3 x4 : IVec Cert.KernelIdeal.S800000 32) (x9 : FVec Ideal Cert.KernelIdeal.S64x64 .f32) (x10 x11 : FVec Ideal Cert.KernelIdeal.S128x64 .f32)
    (x12 : FVec Ideal Cert.KernelIdeal.S64 .f32) (h3 : InRange x3) (h4 : InRange x4) :
    edgeResult x0 x1 x2 x3 x4 x9 x10 x11 x12 = Cert.ReferenceIdeal.Read.val_main_v49 (F := Ideal) x0 x1 x2 x3 x4 x9 x10 x11 x12 := by
  have hu : takeRows (F := Ideal) (proj x1 x9) x3 = Cert.ReferenceIdeal.Read.val_main_v36 (F := Ideal) x1 x3 x9 :=
    (takeRows_eq (F := Ideal) (proj x1 x9) x3 h3).trans
      (congrArg (fun y => gatherRows (F := Ideal) y x3) (Ref.proj_nodes x1 x9))
  have hv : takeRows (F := Ideal)
        (proj2 x0 x1 (extractStridedSlice Cert.KernelIdeal.S64x64 ![0, 0] x10 Cert.KernelIdeal.Gen.slices_S128x64_S64x64_0_0)
          (extractStridedSlice Cert.KernelIdeal.S64x64 ![64, 0] x10 Cert.KernelIdeal.Gen.slices_S128x64_S64x64_64_0)) x4
      = Cert.ReferenceIdeal.Read.val_main_v43 (F := Ideal) x0 x1 x4 x10 :=
    (takeRows_eq (F := Ideal) _ x4 h4).trans
      (congrArg (fun y => gatherRows (F := Ideal) y x4)
        (Ref.proj2_nodes x0 x1 x10 Cert.KernelIdeal.Gen.slices_S128x64_S64x64_0_0 Cert.KernelIdeal.Gen.slices_S128x64_S64x64_64_0))
  unfold edgeResult
  rw [hu, hv]
  exact RefOut.edgeOut_edges x2 (Cert.ReferenceIdeal.Read.val_main_v36 (F := Ideal) x1 x3 x9) (Cert.ReferenceIdeal.Read.val_main_v43 (F := Ideal) x0 x1 x4 x10) x11 x12
    Cert.KernelIdeal.Gen.slices_S128x64_S64x64_0_0 Cert.KernelIdeal.Gen.slices_S128x64_S64x64_64_0 Cert.KernelIdeal.Gen.shapeCasts_S64_S1x64

end Cert.Gnn

end
-- ==== Proof.Range.lean ====
/-
  The precondition's last two conjuncts say that every entry of `src` and of `dst` is a node index.
-/
import proofs.«431017_j90924457656405_3_alg».proof.Proof.Gen.Pre_finite_inputs
import proofs.«431017_j90924457656405_3_alg».proof.Proof.Nodes
import Idealize.ShloMosaic.Lib.StableHlo.Predicate
import Idealize.ShloMosaic.Lib.ReduceAll
import Idealize.ShloMosaic.Lib.ValueIdx

noncomputable section

namespace Cert.Gnn

open Cert.Pre_finite_inputs
open Idealize.ShloMosaic Idealize.ShloMosaic.ValueIdx

variable {F : FTy → Type} [FloatOps F]

/-- A rank-0 shape has one index. -/
private instance subsingleton_scalarIdx : Subsingleton S_.Idx := ⟨fun a b => funext fun d => d.elim0⟩

/-- A 32-bit word that is `≥ 0` and `< 50000` read signed has value below 50000: a non-negative signed word is its
    own value, and a word whose top bit is set reads negative. -/
private theorem toNat_lt_of_signed (w : BitVec 32) (h0 : IntOp.cmpi .sge w 0#32 = 1#1)
    (h1 : IntOp.cmpi .slt w 50000#32 = 1#1) : w.toNat < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  have hw := w.isLt
  rw [BitVec.toInt_eq_toNat_cond] at h0 h1
  split at h0 <;> omega

/-- One `all (0 ≤ idx ∧ idx < 50000)` conjunct of the precondition, read back: the reduction by `and` over all 800000
    entries being 1 makes each entry's two comparisons 1, and the two compared constants are scalars broadcast. -/
private theorem inRange_of_all (idx : IVec S800000 32)
    (e : Host.reduce IntOp.andi
        (andi (cmpi .sge idx (broadcastInDim S800000 ![] Facts.bcast_S_S800000 (constantI S_ 32 0#32)))
          (cmpi .slt idx (broadcastInDim S800000 ![] Facts.bcast_S_S800000 (constantI S_ 32 50000#32))))
        (constantI S_ 1 1#1) Facts.reducesTo_S800000_S_d0 Facts.h_S_ ValueIdx.ix0 = 1#1) : InRange idx := by
  intro i
  have hi := Host.reduce_andi_all _ _ _ _ _ e i
  obtain ⟨h0, h1⟩ := IntOp.andi_eq_one.1 hi
  exact toNat_lt_of_signed (idx i) h0 h1

/-- The precondition holding (its one-bit result all ones) gives: every source index and every destination index is
    a node, `0 ≤ · < 50000` read signed. -/
theorem inRange_of_pre (a0 a1 : FVec F S50000x64 .f32) (a2 : FVec F S800000x64 .f32) (a3 a4 : IVec S800000 32)
    (a5 : FVec F S64x64 .f32) (a6 : FVec F S192x64 .f32) (a7 : FVec F S64x64 .f32) (a8 : FVec F S64 .f32)
    (a9 : FVec F S64x64 .f32) (a10 a11 : FVec F S128x64 .f32) (a12 : FVec F S64 .f32)
    (h : Cert.Pre_finite_inputs.fn (F := F) a0 a1 a2 a3 a4 a5 a6 a7 a8 a9 a10 a11 a12 = fun _ => 1#1) :
    InRange a3 ∧ InRange a4 := by
  have e := congrFun h ValueIdx.ix0
  dsimp only [fn, fn_part1, fn_part2, fn_part3] at e
  obtain ⟨h12, h4⟩ := IntOp.andi_eq_one.1 e
  obtain ⟨-, h3⟩ := IntOp.andi_eq_one.1 h12
  exact ⟨inRange_of_all a3 h3, inRange_of_all a4 h4⟩

end Cert.Gnn

end
-- ==== Proof.lean ====
/-
  The certificate of a graph message-passing layer (50000 nodes, 800000 edges, width 64): a kernel program of four
  dense regions with host gathers and a scatter-add mean between them, against a plain reference.

  Over the extended reals both programs compute, for every node `n` and edge `e`,
    h_out[n] = S[n]·W₆[0:64] + X[n]·W₆[64:128] + mean_{e → n}(X[src e]·W₅ + E[e]·W₇) · W₆[128:192] + b₈
    e_out[e] = E[e]·W₁₁[0:64] + (X[src e]·W₉ + S[dst e]·W₁₀[0:64] + X[dst e]·W₁₀[64:128]) · W₁₁[64:128] + b₁₂ .
  The kernel cuts every weight into 64-row bands and adds the bands' products; the reference concatenates the rows and
  multiplies once: one finite sum grouped two ways (only commutativity and associativity of + are used, so finiteness of
  the inputs is never opened).  The kernel gathers rows with `take`, whose fill replaces a row whose index is out of
  range, the reference with plain indexing, which applies no fill: they agree where every entry of `src` and `dst` is a node
  index `0 … 49999`, which the precondition states.

  Frames: the two kernel programs by their generated frame certificates, the reference by its generated run.  The kernel's
  result arrays are read off the same launch (the run re-posted with the two result buffers), each dense region's output
  array as its specification of the arrays the region finds, and the host steps in between from their operations.
-/
import proofs.«431017_j90924457656405_3_alg».proof.Defs
import proofs.«431017_j90924457656405_3_alg».proof.Proof.Gen.Kernel
import proofs.«431017_j90924457656405_3_alg».proof.Proof.Gen.Kernel.Frame
import proofs.«431017_j90924457656405_3_alg».proof.Proof.Gen.KernelIdeal
import proofs.«431017_j90924457656405_3_alg».proof.Proof.Gen.KernelIdeal.Frame
import proofs.«431017_j90924457656405_3_alg».proof.Proof.Gen.ReferenceIdeal
import proofs.«431017_j90924457656405_3_alg».proof.Proof.Gen.Pre_finite_inputs
import proofs.«431017_j90924457656405_3_alg».proof.Proof.Gen.ReferenceIdeal.Run
import proofs.«431017_j90924457656405_3_alg».proof.Proof.Gen.ReferenceIdeal.Read
import proofs.«431017_j90924457656405_3_alg».proof.Proof.KRun
import proofs.«431017_j90924457656405_3_alg».proof.Proof.KThreadB
import proofs.«431017_j90924457656405_3_alg».proof.Proof.Bridge
import proofs.«431017_j90924457656405_3_alg».proof.Proof.Range
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two idealized programs end with equal results: both at the reference's two stage terms of the (agreeing)
    argument arrays. -/
theorem algebraic : Cert.algebraic_KernelIdeal_ReferenceIdeal := by
  intro m ρ m' ρ' hpre hagree
  have hr : ∀ c : Dev Cert.KernelIdeal.nD,
      Cert.Gnn.InRange (m ((c.tc : Thread Cert.KernelIdeal.nD Cert.KernelIdeal.τ).loc Cert.KernelIdeal.main_arg3))
      ∧ Cert.Gnn.InRange (m ((c.tc : Thread Cert.KernelIdeal.nD Cert.KernelIdeal.τ).loc Cert.KernelIdeal.main_arg4)) :=
    fun c => Cert.Gnn.inRange_of_pre _ _ _ _ _ _ _ _ _ _ _ _ _ (hpre c)
  refine ⟨fun c => Cert.ReferenceIdeal.Read.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2.1.trans ?_, (h c).2.2⟩)
      (Cert.KernelIdeal.RunValues.run_values (F := Ideal) m ρ)
    · exact (Cert.Gnn.Thread.W10_v23 m ρ c).trans (Cert.Gnn.nodeResult_eq _ _ _ _ _ _ _ _ _ (hr c).1)
    · exact (Cert.Gnn.Thread.W10_v27 m ρ c).trans (Cert.Gnn.edgeResult_eq _ _ _ _ _ _ _ _ _ (hr c).1 (hr c).2)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12⟩ := hagree c
      rw [e0, e1, e2, e3, e4, e5, e6, e7, e8]
      exact Cert.ReferenceIdeal.Read.val_main_v26_eq _ _ _ _ _ _ _ _ _
    · obtain ⟨e0, e1, e2, e3, e4, e5, e6, e7, e8, e9, e10, e11, e12⟩ := hagree c
      rw [e0, e1, e2, e3, e4, e9, e10, e11, e12]
      exact Cert.ReferenceIdeal.Read.val_main_v49_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
